-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x1536 : Shape := ⟨3, ![256, 128, 1536]⟩
abbrev S256x64x128 : Shape := ⟨3, ![256, 64, 128]⟩
abbrev S256x64 : Shape := ⟨2, ![256, 64]⟩
abbrev S_ : Shape := ⟨0, ![]⟩

class Facts : Prop where
  bcast_S_S256x128x1536 : S_.BroadcastsInDim S256x128x1536 (![] : Fin 0 → Fin S256x128x1536.rank)
  reducesTo_S256x128x1536_S_d0_1_2 : S256x128x1536.ReducesTo [0, 1, 2] S_
  h_S_ : 0 < S_.numel
  bcast_S_S256x64x128 : S_.BroadcastsInDim S256x64x128 (![] : Fin 0 → Fin S256x64x128.rank)
  reducesTo_S256x64x128_S_d0_1_2 : S256x64x128.ReducesTo [0, 1, 2] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S256x128x1536 .f32) (main_arg1 : FVec F S256x64x128 .f32) (main_arg2 : FVec F S256x64 .f32) : IVec S_ 1 :=
  let main_v0 : FVec F S256x128x1536 .f32 := Host.absf main_arg0
  let main_cst : FVec F S_ .f32 := constant S_ .f32 0x7F800000#32
  let main_v1 : FVec F S256x128x1536 .f32 := broadcastInDim S256x128x1536 ![] bcast_S_S256x128x1536 main_cst
  let main_v2 : IVec S256x128x1536 1 := cmpf .olt main_v0 main_v1
  let main_c : IVec S_ 1 := constantI S_ 1 1#1
  let main_v3 : IVec S_ 1 := (fun x v => Host.reduce IntOp.andi x v reducesTo_S256x128x1536_S_d0_1_2 h_S_) main_v2 main_c
  let main_v4 : FVec F S256x64x128 .f32 := Host.absf main_arg1
  let main_cst_0 : FVec F S_ .f32 := constant S_ .f32 0x7F800000#32
  let main_v5 : FVec F S256x64x128 .f32 := broadcastInDim S256x64x128 ![] bcast_S_S256x64x128 main_cst_0
  let main_v6 : IVec S256x64x128 1 := cmpf .olt main_v4 main_v5
  let main_c_1 : IVec S_ 1 := constantI S_ 1 1#1
  let main_v7 : IVec S_ 1 := (fun x v => Host.reduce IntOp.andi x v reducesTo_S256x64x128_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S256x128x1536 : Shape := ⟨3, ![256, 128, 1536]⟩
abbrev S256x64x128 : Shape := ⟨3, ![256, 64, 128]⟩
abbrev S256x64 : Shape := ⟨2, ![256, 64]⟩
abbrev S2x1x128 : Shape := ⟨3, ![2, 1, 128]⟩
abbrev S16x128x1536 : Shape := ⟨3, ![16, 128, 1536]⟩
abbrev S16x64x128 : Shape := ⟨3, ![16, 64, 128]⟩
abbrev S16x64 : Shape := ⟨2, ![16, 64]⟩
abbrev S1x1x128 : Shape := ⟨3, ![1, 1, 128]⟩
abbrev S16x128x256 : Shape := ⟨3, ![16, 128, 256]⟩
abbrev S16x128 : Shape := ⟨2, ![16, 128]⟩
abbrev S16x64x1 : Shape := ⟨3, ![16, 64, 1]⟩
abbrev S16x1x128 : Shape := ⟨3, ![16, 1, 128]⟩
abbrev S1x16x64x128 : Shape := ⟨4, ![1, 16, 64, 128]⟩
abbrev S1 : Shape := ⟨1, ![1]⟩
abbrev S1x1x1x1 : Shape := ⟨4, ![1, 1, 1, 1]⟩
abbrev S1x16x128 : Shape := ⟨3, ![1, 16, 128]⟩
abbrev S1x1x1 : Shape := ⟨3, ![1, 1, 1]⟩
abbrev S1x16x64 : Shape := ⟨3, ![1, 16, 64]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 9
  | .smem => 0
  | _ => 0

abbrev bufTy : (tb : Table) → Fin (tcTables nBuf tb) → BufTy
  | .hbm, ⟨0, _⟩ => ⟨S256x128x1536, .f32⟩
  | .hbm, ⟨1, _⟩ => ⟨S256x64x128, .f32⟩
  | .hbm, ⟨2, _⟩ => ⟨S256x64, .f32⟩
  | .hbm, ⟨3, _⟩ => ⟨S2x1x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S16x128x1536, .f32⟩
  | .local _ .vmem, ⟨1, _⟩ => ⟨S16x128x1536, .f32⟩
  | .local _ .vmem, ⟨2, _⟩ => ⟨S16x64x128, .f32⟩
  | .local _ .vmem, ⟨3, _⟩ => ⟨S16x64x128, .f32⟩
  | .local _ .vmem, ⟨4, _⟩ => ⟨S16x64, .f32⟩
  | .local _ .vmem, ⟨5, _⟩ => ⟨S16x64, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | _, _ => ⟨S256x128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v84 : BitVec 1 := Scalar.cmpi .eq arg1 c7_i32
  let v85 : BitVec 32 := Scalar.extui v84
  let c0_i32_25 : BitVec 32 := 0#32
  let v86 : BitVec 1 := Scalar.cmpi .ne v85 c0_i32_25
  v86

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S16x128x1536_S16x128x1536_0_0_0 : ∀ a, (![0, 0, 0] : Fin 3 → Nat) a + S16x128x1536.size a ≤ S16x128x1536.size a
  h_S16x128x1536 : 0 < S16x128x1536.numel
  inb_S16x64x128_S16x64x128_0_0_0 : ∀ a, (![0, 0, 0] : Fin 3 → Nat) a + S16x64x128.size a ≤ S16x64x128.size a
  h_S16x64x128 : 0 < S16x64x128.numel
  inb_S16x64_S16x64_0_0 : ∀ a, (![0, 0] : Fin 2 → Nat) a + S16x64.size a ≤ S16x64.size a
  h_S16x64 : 0 < S16x64.numel
  slices_S16x128x1536_o0_0_0_S16x128x256 : S16x128x1536.Slices ![0, 0, 0] S16x128x256
  slices_S16x128x1536_o0_0_256_S16x128x256 : S16x128x1536.Slices ![0, 0, 256] S16x128x256
  slices_S16x128x1536_o0_0_512_S16x128x256 : S16x128x1536.Slices ![0, 0, 512] S16x128x256
  slices_S16x128x1536_o0_0_768_S16x128x256 : S16x128x1536.Slices ![0, 0, 768] S16x128x256
  slices_S16x128x1536_o0_0_1024_S16x128x256 : S16x128x1536.Slices ![0, 0, 1024] S16x128x256
  slices_S16x128x1536_o0_0_1280_S16x128x256 : S16x128x1536.Slices ![0, 0, 1280] S16x128x256
  reduces_S16x128x256_S16x128 : S16x128x256.Reduces [2] S16x128
  shapeCasts_S16x64_S16x64x1 : S16x64.ShapeCasts S16x64x1
  broadcasts_S16x64x1_S16x64x128 : S16x64x1.Broadcasts S16x64x128
  shapeCasts_S16x128_S16x1x128 : S16x128.ShapeCasts S16x1x128
  broadcasts_S16x1x128_S16x64x128 : S16x1x128.Broadcasts S16x64x128
  shapeCasts_S16x64x128_S1x16x64x128 : S16x64x128.ShapeCasts S1x16x64x128
  reduces_S1x16x64x128_S1 : S1x16x64x128.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  reduces_S16x64x128_S16x128 : S16x64x128.Reduces [1] S16x128
  reduces_S16x128x1536_S16x128 : S16x128x1536.Reduces [2] S16x128
  shapeCasts_S16x128_S1x16x128 : S16x128.ShapeCasts S1x16x128
  reduces_S1x16x128_S1 : S1x16x128.Reduces [1, 2] S1
  shapeCasts_S1_S1x1x1 : S1.ShapeCasts S1x1x1
  inpos_S1x1x1_p0_0_0 : ∀ a, (![0, 0, 0] : Fin 3 → Nat) a < S1x1x1.size a
  shapeCasts_S16x64_S1x16x64 : S16x64.ShapeCasts S1x16x64
  reduces_S1x16x64_S1 : S1x16x64.Reduces [1, 2] S1
  iota_S1x1x128_d2_w32 : S1x1x128.Iotas .tc 32 [2]
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  slices_S2x1x128_S2x1x1_0_0_1 : S2x1x128.Slices ![0, 0, 1] S2x1x1
  slices_S2x1x128_S2x1x1_0_0_2 : S2x1x128.Slices ![0, 0, 2] S2x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1536.size a ≤ S256x128x1536.size a
  hwx0_0 : ∀ i : grid0.Coords, EltTy.bits .f32 = 32 ∨ (Rect.block (s := S256x128x1536) S16x128x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x128.size a ≤ S256x64x128.size a
  hwx0_1 : ∀ i : grid0.Coords, EltTy.bits .f32 = 32 ∨ (Rect.block (s := S256x64x128) S16x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S256x64.size a
  hwx0_2 : ∀ i : grid0.Coords, EltTy.bits .f32 = 32 ∨ (Rect.block (s := S256x64) S16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S16x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x128x1536 : Shape := ⟨3, ![256, 128, 1536]⟩
abbrev S256x64x128 : Shape := ⟨3, ![256, 64, 128]⟩
abbrev S256x64 : Shape := ⟨2, ![256, 64]⟩
abbrev S_ : Shape := ⟨0, ![]⟩
abbrev S256x64x1 : Shape := ⟨3, ![256, 64, 1]⟩
abbrev S256x128x256 : Shape := ⟨3, ![256, 128, 256]⟩
abbrev S256x128 : Shape := ⟨2, ![256, 128]⟩
abbrev S256x1x128 : Shape := ⟨3, ![256, 1, 128]⟩

abbrev nBuf : Space → Nat
  | .hbm => 112
  | .vmem => 0
  | .smem => 0
  | _ => 0

abbrev bufTy : (tb : Table) → Fin (tcTables nBuf tb) → BufTy
  | .hbm, ⟨0, _⟩ => ⟨S256x128x1536, .f32⟩
  | .hbm, ⟨1, _⟩ => ⟨S256x64x128, .f32⟩
  | .hbm, ⟨2, _⟩ => ⟨S256x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S256x64x128, .f32⟩
  | .hbm, ⟨7, _⟩ => ⟨S256x64x128, .f32⟩
  | .hbm, ⟨8, _⟩ => ⟨S256x64x1, .f32⟩
  | .hbm, ⟨9, _⟩ => ⟨S256x64x128, .f32⟩
  | .hbm, ⟨10, _⟩ => ⟨S256x64x128, .f32⟩
  | .hbm, ⟨11, _⟩ => ⟨S256x128x256, .f32⟩
  | .hbm, ⟨12, _⟩ => ⟨S256x128x256, .f32⟩
  | .hbm, ⟨13, _⟩ => ⟨S256x128x256, .f32⟩
  | .hbm, ⟨14, _⟩ => ⟨S256x128x256, .f32⟩
  | .hbm, ⟨15, _⟩ => ⟨S256x128x256, .f32⟩
  | .hbm, ⟨16, _⟩ => ⟨S256x128x256, .f32⟩
  | .hbm, ⟨17, _⟩ => ⟨S256x128x256, .f32⟩
  | .hbm, ⟨18, _⟩ => ⟨S256x128x256, .f32⟩
  | .hbm, ⟨19, _⟩ => ⟨S256x128x256, .f32⟩
  | .hbm, ⟨20, _⟩ => ⟨S256x128x256, .f32⟩
  | .hbm, ⟨21, _⟩ => ⟨S256x128x256, .f32⟩
  | .hbm, ⟨22, _⟩ => ⟨S256x128x256, .f32⟩
  | .hbm, ⟨23, _⟩ => ⟨S256x128x256, .f32⟩
  | .hbm, ⟨24, _⟩ => ⟨S256x128x256, .f32⟩
  | .hbm, ⟨25, _⟩ => ⟨S256x128x256, .f32⟩
  | .hbm, ⟨26, _⟩ => ⟨S256x128x256, .f32⟩
  | .hbm, ⟨27, _⟩ => ⟨S256x128x256, .f32⟩
  | .hbm, ⟨28, _⟩ => ⟨S_, .f32⟩
  | .hbm, ⟨29, _⟩ => ⟨S256x128, .f32⟩
  | .hbm, ⟨30, _⟩ => ⟨S256x64x128, .f32⟩
  | .hbm, ⟨31, _⟩ => ⟨S256x64x128, .f32⟩
  | .hbm, ⟨32, _⟩ => ⟨S256x64x128, .f32⟩
  | .hbm, ⟨33, _⟩ => ⟨S256x1x128, .f32⟩
  | .hbm, ⟨34, _⟩ => ⟨S256x64x128, .f32⟩
  | .hbm, ⟨35, _⟩ => ⟨S256x64x128, .f32⟩
  | .hbm, ⟨36, _⟩ => ⟨S256x64x128, .f32⟩
  | .hbm, ⟨37, _⟩ => ⟨S_, .f32⟩
  | .hbm, ⟨38, _⟩ => ⟨S256x128, .f32⟩
  | .hbm, ⟨39, _⟩ => ⟨S256x128x256, .f32⟩
  | .hbm, ⟨40, _⟩ => ⟨S_, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S256x128x256, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256x128x256, .f32⟩
  | .hbm, ⟨57, _⟩ => ⟨S_, .f32⟩
  | .hbm, ⟨58, _⟩ => ⟨S256x128, .f32⟩
  | .hbm, ⟨59, _⟩ => ⟨S256x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S256x128x256, .f32⟩
  | .hbm, ⟨66, _⟩ => ⟨S_, .f32⟩
  | .hbm, ⟨67, _⟩ => ⟨S256x128, .f32⟩
  | .hbm, ⟨68, _⟩ => ⟨S256x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S256x128x256, .f32⟩
  | .hbm, ⟨75, _⟩ => ⟨S_, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256x128x256, .f32⟩
  | .hbm, ⟨84, _⟩ => ⟨S_, .f32⟩
  | .hbm, ⟨85, _⟩ => ⟨S256x128, .f32⟩
  | .hbm, ⟨86, _⟩ => ⟨S256x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S256x64x128, .f32⟩
  | .hbm, ⟨94, _⟩ => ⟨S256x64x128, .f32⟩
  | .hbm, ⟨95, _⟩ => ⟨S256x64x128, .f32⟩
  | .hbm, ⟨96, _⟩ => ⟨S256x64x128, .f32⟩
  | .hbm, ⟨97, _⟩ => ⟨S256x64x128, .i1⟩
  | .hbm, ⟨98, _⟩ => ⟨S256x64x128, .f32⟩
  | .hbm, ⟨99, _⟩ => ⟨S256x64x128, .f32⟩
  | .hbm, ⟨100, _⟩ => ⟨S256x64x128, .f32⟩
  | .hbm, ⟨101, _⟩ => ⟨S256x64x128, .f32⟩
  | .hbm, ⟨102, _⟩ => ⟨S256x64x128, .f32⟩
  | .hbm, ⟨103, _⟩ => ⟨S256x64x128, .f32⟩
  | .hbm, ⟨104, _⟩ => ⟨S256x64x128, .f32⟩
  | .hbm, ⟨105, _⟩ => ⟨S256x64x128, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S256x128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_cst_16 : Ref sig .tc := ⟨.hbm, 78, rfl⟩
abbrev main_v58 : Ref sig .tc := ⟨.hbm, 79, rfl⟩
abbrev main_cst_17 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_18 : Ref sig .tc := ⟨.hbm, 84, rfl⟩
abbrev main_v62 : Ref sig .tc := ⟨.hbm, 85, rfl⟩
abbrev main_v63 : Ref sig .tc := ⟨.hbm, 86, rfl⟩
abbrev main_cst_19 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_v66 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v67 : Ref sig .tc := ⟨.hbm, 105, rfl⟩
abbrev main_cst_21 : Ref sig .tc := ⟨.hbm, 106, rfl⟩
abbrev main_v68 : Ref sig .tc := ⟨.hbm, 107, rfl⟩
abbrev main_v69 : Ref sig .tc := ⟨.hbm, 108, rfl⟩
abbrev main_cst_22 : Ref sig .tc := ⟨.hbm, 109, rfl⟩
abbrev main_v70 : Ref sig .tc := ⟨.hbm, 110, rfl⟩
abbrev main_v71 : Ref sig .tc := ⟨.hbm, 111, rfl⟩

abbrev nD : Nat := 1
abbrev τ : Topo := Topo.v7x

variable {F : FTy → Type} [FloatOps F]

class Facts₀ : Prop where
  reducesTo_S256x64_S_d0_1 : S256x64.ReducesTo [0, 1] S_
  h_S_ : 0 < S_.numel
  bcast_S_S256x64x128 : S_.BroadcastsInDim S256x64x128 (![] : Fin 0 → Fin S256x64x128.rank)
  bcast_S256x64_S256x64x1_0_1 : S256x64.BroadcastsInDim S256x64x1 (![0, 1] : Fin 2 → Fin S256x64x1.rank)
  bcast_S256x64x1_S256x64x128_0_1_2 : S256x64x1.BroadcastsInDim S256x64x128 (![0, 1, 2] : Fin 3 → Fin S256x64x128.rank)
  slices_S256x128x1536_S256x128x256_0_0_0 : S256x128x1536.Slices ![0, 0, 0] S256x128x256
  slices_S256x128x1536_S256x128x256_0_0_256 : S256x128x1536.Slices ![0, 0, 256] S256x128x256
  slices_S256x128x1536_S256x128x256_0_0_512 : S256x128x1536.Slices ![0, 0, 512] S256x128x256
  slices_S256x128x1536_S256x128x256_0_0_768 : S256x128x1536.Slices ![0, 0, 768] S256x128x256
  slices_S256x128x1536_S256x128x256_0_0_1024 : S256x128x1536.Slices ![0, 0, 1024] S256x128x256
  slices_S256x128x1536_S256x128x256_0_0_1280 : S256x128x1536.Slices ![0, 0, 1280] S256x128x256
  reducesTo_S256x128x256_S256x128_d2 : S256x128x256.ReducesTo [2] S256x128
  bcast_S256x128_S256x1x128_0_2 : S256x128.BroadcastsInDim S256x1x128 (![0, 2] : Fin 2 → Fin S256x1x128.rank)
  bcast_S256x1x128_S256x64x128_0_1_2 : S256x1x128.BroadcastsInDim S256x64x128 (![0, 1, 2] : Fin 3 → Fin S256x64x128.rank)
  reducesTo_S256x64x128_S256x128_d1 : S256x64x128.ReducesTo [1] S256x128
  reducesTo_S256x128_S_d0_1 : S256x128.ReducesTo [0, 1] S_
  reducesTo_S256x64x128_S_d0_1_2 : S256x64x128.ReducesTo [0, 1, 2] S_

variable [Facts₀]

class Facts : Prop extends Facts₀ where

variable [Facts]
-- ==== Proof.Spec.lean ====
/-
  The two results as formulas over the extended reals.

  Inputs: features `T[b, r, f]` (256 × 128 × 1536, six consecutive groups of 256 features: the real and imaginary
  parts of head, relation and tail), weights `A[b, s, r]` (256 × 64 × 128) and a mask `M[b, s]` (256 × 64).
  With `a = (A − 0.1) · M` both programs compute

      Σ softplus(−a³ · s0) / Σ M  +  0.01 · (regulariser) / 2²⁹

  where `s0[b, r]` is the real part of the triple product head · tail-conjugate-like · relation summed over the 256
  features, and the regulariser is Σ_{b,r} (Σ_s a²) · (Σ_f T²).

  They differ in how the sums are arranged. `refVal` is the arrangement of the plain program: `s0` expanded into
  four triple products, the regulariser as six quotients (one per feature group) added up, every sum over the whole
  batch. `kerVal` is the arrangement of the tiled program: `s0` factored, the regulariser with one sum over all
  1536 features and one quotient, the batch cut into 2 × 8 tiles of 16 rows whose partial sums are added.
  No program is imported here.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev ST : Shape := ⟨3, ![256, 128, 1536]⟩
abbrev SA : Shape := ⟨3, ![256, 64, 128]⟩
abbrev SM : Shape := ⟨2, ![256, 64]⟩

/-- The literal both programs subtract from the weights (the f32 nearest 0.1). -/
def c01 : EReal := Ideal.ofBits .f32 0x3DCCCCCD#32
/-- The literal both programs scale the regulariser by (the f32 nearest 0.01). -/
def c001 : EReal := Ideal.ofBits .f32 0x3C23D70A#32
/-- The divisor of the regulariser, 256 · 64 · 128 · 256 = 2²⁹. -/
def den : EReal := Ideal.ofBits .f32 0x4E000000#32

variable (T : ST.Idx → EReal) (A : SA.Idx → EReal) (M : SM.Idx → EReal)

/-- Feature `o + d` of row `(b, r)`: entry `d` of the group of 256 features that starts at `o`. -/
def grp (o : Nat) (ho : o + 256 ≤ 1536) (b : Fin 256) (r : Fin 128) (d : Fin 256) : EReal :=
  T (ix3 b r (⟨o + d.val, by omega⟩ : Fin 1536))

abbrev hre := grp T 0 (by norm_num)
abbrev him := grp T 256 (by norm_num)
abbrev rre := grp T 512 (by norm_num)
abbrev rim := grp T 768 (by norm_num)
abbrev tre := grp T 1024 (by norm_num)
abbrev tim := grp T 1280 (by norm_num)

/-- The masked, shifted weight `a = (A − 0.1) · M`. -/
def a (b : Fin 256) (s : Fin 64) (r : Fin 128) : EReal := (A (ix3 b s r) - c01) * M (ix2 b s)

/-- `s0`, expanded: four triple products per feature. -/
def s0R (b : Fin 256) (r : Fin 128) : EReal :=
  ∑ d : Fin 256, (hre T b r d * tre T b r d * rre T b r d + him T b r d * tim T b r d * rre T b r d
    + hre T b r d * tim T b r d * rim T b r d - him T b r d * tre T b r d * rim T b r d)

/-- `s0`, factored: the relation's parts taken out of two brackets. -/
def s0K (b : Fin 256) (r : Fin 128) : EReal :=
  ∑ d : Fin 256, (rre T b r d * (hre T b r d * tre T b r d + him T b r d * tim T b r d)
    + rim T b r d * (hre T b r d * tim T b r d - him T b r d * tre T b r d))

/-- The score `−a³ · s0`, the cube as `(a · a) · a` and the sign a negation. -/
def scoreR (b : Fin 256) (s : Fin 64) (r : Fin 128) : EReal :=
  -(a A M b s r * a A M b s r * a A M b s r) * s0R T b r

/-- The score `−a³ · s0`, the cube as `a · (a · a)` and the sign a subtraction from zero. -/
def scoreK (b : Fin 256) (s : Fin 64) (r : Fin 128) : EReal :=
  (0 - a A M b s r * (a A M b s r * a A M b s r)) * s0K T b r

/-- softplus in the numerically stable form both programs use: `max(x, 0) + log(1 + exp(−|x|))`, the absolute
    value as `max(x, −x)`. -/
def sp (x : EReal) : EReal := max x 0 + Ideal.log1p (Ideal.exp (-(max x (-x))))

/-- `Σ_s a²`. -/
def a2s (b : Fin 256) (r : Fin 128) : EReal := ∑ s : Fin 64, a A M b s r * a A M b s r

/-- The sum of squares over one group of 256 features. -/
def sq (o : Nat) (ho : o + 256 ≤ 1536) (b : Fin 256) (r : Fin 128) : EReal :=
  ∑ d : Fin 256, grp T o ho b r d * grp T o ho b r d

/-- The sum of squares over all 1536 features. -/
def tsq (b : Fin 256) (r : Fin 128) : EReal := ∑ f : Fin 1536, T (ix3 b r f) * T (ix3 b r f)

/-- The regulariser of one feature group, summed over the whole batch. -/
def reg (o : Nat) (ho : o + 256 ≤ 1536) : EReal := ∑ b : Fin 256, ∑ r : Fin 128, a2s A M b r * sq T o ho b r

/-- THE PLAIN ARRANGEMENT. The six groups enter in the order head (re, im), tail (re, im), relation (re, im). -/
def refVal : EReal :=
  Ideal.div (∑ b : Fin 256, ∑ s : Fin 64, ∑ r : Fin 128, sp (scoreR T A M b s r)) (∑ b : Fin 256, ∑ s : Fin 64, M (ix2 b s))
  + c001 * (Ideal.div (reg T A M 0 (by norm_num)) den + Ideal.div (reg T A M 256 (by norm_num)) den
      + Ideal.div (reg T A M 1024 (by norm_num)) den + Ideal.div (reg T A M 1280 (by norm_num)) den
      + Ideal.div (reg T A M 512 (by norm_num)) den + Ideal.div (reg T A M 768 (by norm_num)) den)

/-- Row `b'` of tile `t` (16 tiles of 16 rows). -/
def row (t : Fin 16) (b' : Fin 16) : Fin 256 := ⟨16 * t.val + b'.val, by omega⟩
/-- Step `j` of core `c` (2 cores of 8 steps) is tile `8 c + j`. -/
def tile (c : Fin 2) (j : Fin 8) : Fin 16 := ⟨8 * c.val + j.val, by omega⟩

/-- Tile `t`'s share of the softplus sum. -/
def dSP (t : Fin 16) : EReal := ∑ b' : Fin 16, ∑ s : Fin 64, ∑ r : Fin 128, sp (scoreK T A M (row t b') s r)
/-- Tile `t`'s share of the regulariser. -/
def dREG (t : Fin 16) : EReal := ∑ b' : Fin 16, ∑ r : Fin 128, a2s A M (row t b') r * tsq T (row t b') r
/-- Tile `t`'s share of the mask sum. -/
def dM (t : Fin 16) : EReal := ∑ b' : Fin 16, ∑ s : Fin 64, M (ix2 (row t b') s)

/-- THE TILED ARRANGEMENT. -/
def kerVal : EReal :=
  Ideal.div (∑ c : Fin 2, ∑ j : Fin 8, dSP T A M (tile c j)) (∑ c : Fin 2, ∑ j : Fin 8, dM M (tile c j))
  + c001 * Ideal.div (∑ c : Fin 2, ∑ j : Fin 8, dREG T A M (tile c j)) den

end Cert.Spec

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.Algebra.lean ====
/-
  The tiled arrangement and the plain arrangement of the formula are the same extended real as soon as every input
  is a real number.

  Three things separate the two arrangements.

  * The batch of 256 rows is cut into 2 × 8 tiles of 16 rows. Addition of extended reals is commutative and
    associative, so the tile sums add up to the sum over the batch (sum_rows); no finiteness is needed here.
  * The inner product s0 is factored in one arrangement and expanded in the other, the cube is bracketed
    differently, and the sign is a negation or a subtraction from zero. The factoring is distributivity, which over
    the extended reals holds for real numbers only: this is where the features have to be real (s0K_eq).
  * The regulariser is one quotient of one sum over all 1536 features, or six quotients of the sums over the six
    groups of 256 features. The sum over the features splits into the six groups without any hypothesis
    (tsq_split); taking the factor Σ a² into the six and the divisor 2²⁹ into the six is again distributivity,
    on real numbers (mul_add6, div_six).
-/
import proofs.«419007_j82102594831164_3_alg».proof.Proof.Spec
import proofs.«419007_j82102594831164_3_alg».proof.Proof.LibTileSum
import Idealize.ShloMosaic.PureOps.Ideal
import Mathlib.Data.EReal.Basic
import Mathlib.Data.EReal.Operations
import Mathlib.Algebra.BigOperators.Fin
import Mathlib.Tactic.Ring
import Mathlib.Tactic.NormNum

noncomputable section

namespace Cert.Algebra

open Idealize.ShloMosaic Idealize.ShloMosaic.ValueIdx Cert.Spec

/-! ### Extended reals that are real numbers -/

/-- An extended real that is a real number. -/
def IsReal (x : EReal) : Prop := ∃ r : ℝ, x = (r : EReal)

theorem IsReal.add {x y : EReal} (hx : IsReal x) (hy : IsReal y) : IsReal (x + y) := by
  obtain ⟨u, rfl⟩ := hx
  obtain ⟨v, rfl⟩ := hy
  exact ⟨u + v, (EReal.coe_add u v).symm⟩

theorem IsReal.mul {x y : EReal} (hx : IsReal x) (hy : IsReal y) : IsReal (x * y) := by
  obtain ⟨u, rfl⟩ := hx
  obtain ⟨v, rfl⟩ := hy
  exact ⟨u * v, (EReal.coe_mul u v).symm⟩

theorem IsReal.sub {x y : EReal} (hx : IsReal x) (hy : IsReal y) : IsReal (x - y) := by
  obtain ⟨u, rfl⟩ := hx
  obtain ⟨v, rfl⟩ := hy
  exact ⟨u - v, (EReal.coe_sub u v).symm⟩

/-- A finite sum of real numbers is a real number. -/
theorem IsReal.sum {ι : Type*} (s : Finset ι) (f : ι → EReal) (h : ∀ i ∈ s, IsReal (f i)) :
    IsReal (∑ i ∈ s, f i) :=
  Finset.sum_induction f IsReal (fun _ _ => IsReal.add) ⟨0, EReal.coe_zero.symm⟩ h

/-- A real factor goes into a sum of six real numbers. -/
theorem mul_add6 {x y0 y1 y2 y3 y4 y5 : EReal} (hx : IsReal x) (h0 : IsReal y0) (h1 : IsReal y1)
    (h2 : IsReal y2) (h3 : IsReal y3) (h4 : IsReal y4) (h5 : IsReal y5) :
    x * (y0 + y1 + y2 + y3 + y4 + y5) = x * y0 + x * y1 + x * y2 + x * y3 + x * y4 + x * y5 := by
  obtain ⟨u, rfl⟩ := hx
  obtain ⟨v0, rfl⟩ := h0
  obtain ⟨v1, rfl⟩ := h1
  obtain ⟨v2, rfl⟩ := h2
  obtain ⟨v3, rfl⟩ := h3
  obtain ⟨v4, rfl⟩ := h4
  obtain ⟨v5, rfl⟩ := h5
  norm_cast
  ring

/-! ### The constants -/

/-- The literal subtracted from the weights is a real number (its exponent field is not all ones). -/
theorem c01_real : IsReal c01 := by
  refine ⟨13421773 / 134217728, ?_⟩
  simp [c01, Ideal.ofBits, Ideal.ieee, -EReal.coe_mul]
  norm_num

/-- The divisor is the real number 2²⁹. -/
theorem den_eq : den = ((536870912 : ℝ) : EReal) := by
  simp [den, Ideal.ofBits, Ideal.ieee, -EReal.coe_mul]
  norm_num

/-! ### Tiles make the batch -/

/-- The 2 × 8 tiles of 16 rows are the 256 rows, each once. -/
theorem sum_rows (g : Fin 256 → EReal) :
    ∑ c : Fin 2, ∑ j : Fin 8, ∑ b' : Fin 16, g (row (tile c j) b') = ∑ b : Fin 256, g b := by
  have h1 := Cert.TileSum.sum_tiles_fin' 2 8 16 rfl (fun t : Fin 16 => ∑ b' : Fin 16, g (row t b')) tile
    (fun c j => by show 8 * c.val + j.val = c.val * 8 + j.val; omega)
  have h2 := Cert.TileSum.sum_tiles_fin' 16 16 256 rfl g row
    (fun t b' => by show 16 * t.val + b'.val = t.val * 16 + b'.val; omega)
  exact h1.trans h2

/-- The mask sum. -/
theorem m_sum (M : SM.Idx → EReal) :
    ∑ c : Fin 2, ∑ j : Fin 8, dM M (tile c j) = ∑ b : Fin 256, ∑ s : Fin 64, M (ix2 b s) :=
  sum_rows fun b => ∑ s : Fin 64, M (ix2 b s)

/-- The 1536 features are six groups of 256. -/
theorem tsq_split (T : ST.Idx → EReal) (b : Fin 256) (r : Fin 128) :
    tsq T b r = sq T 0 (by norm_num) b r + sq T 256 (by norm_num) b r + sq T 512 (by norm_num) b r
      + sq T 768 (by norm_num) b r + sq T 1024 (by norm_num) b r + sq T 1280 (by norm_num) b r := by
  unfold tsq
  refine (Cert.TileSum.sum_tiles_fin' 6 256 1536 rfl (fun f : Fin 1536 => T (ix3 b r f) * T (ix3 b r f))
    (fun k d => ⟨k.val * 256 + d.val, by omega⟩) (fun _ _ => rfl)).symm.trans ?_
  rw [Fin.sum_univ_six]
  rfl

/-! ### One row -/

section Row

variable {T : ST.Idx → EReal} {A : SA.Idx → EReal} {M : SM.Idx → EReal}

/-- On real features the factored inner product is the expanded one: distributivity, term by term. -/
theorem s0K_eq (hT : ∀ i, IsReal (T i)) (b : Fin 256) (r : Fin 128) : s0K T b r = s0R T b r := by
  unfold s0K s0R
  refine Finset.sum_congr rfl fun d _ => ?_
  obtain ⟨x1, h1⟩ : IsReal (hre T b r d) := hT _
  obtain ⟨x2, h2⟩ : IsReal (him T b r d) := hT _
  obtain ⟨x3, h3⟩ : IsReal (rre T b r d) := hT _
  obtain ⟨x4, h4⟩ : IsReal (rim T b r d) := hT _
  obtain ⟨x5, h5⟩ : IsReal (tre T b r d) := hT _
  obtain ⟨x6, h6⟩ : IsReal (tim T b r d) := hT _
  rw [h1, h2, h3, h4, h5, h6]
  norm_cast
  ring

/-- The two scores agree: the cube is associativity, the sign is 0 − x = −x. -/
theorem score_eq (hT : ∀ i, IsReal (T i)) (b : Fin 256) (s : Fin 64) (r : Fin 128) :
    scoreK T A M b s r = scoreR T A M b s r := by
  unfold scoreK scoreR
  rw [s0K_eq hT, zero_sub, mul_assoc (a A M b s r) (a A M b s r) (a A M b s r)]

theorem a_real (hA : ∀ i, IsReal (A i)) (hM : ∀ i, IsReal (M i)) (b : Fin 256) (s : Fin 64) (r : Fin 128) :
    IsReal (a A M b s r) :=
  ((hA _).sub c01_real).mul (hM _)

theorem a2s_real (hA : ∀ i, IsReal (A i)) (hM : ∀ i, IsReal (M i)) (b : Fin 256) (r : Fin 128) :
    IsReal (a2s A M b r) :=
  IsReal.sum _ _ fun s _ => (a_real hA hM b s r).mul (a_real hA hM b s r)

theorem sq_real (hT : ∀ i, IsReal (T i)) (o : Nat) (ho : o + 256 ≤ 1536) (b : Fin 256) (r : Fin 128) :
    IsReal (sq T o ho b r) :=
  IsReal.sum _ _ fun d _ => IsReal.mul (x := grp T o ho b r d) (y := grp T o ho b r d) (hT _) (hT _)

theorem reg_real (hT : ∀ i, IsReal (T i)) (hA : ∀ i, IsReal (A i)) (hM : ∀ i, IsReal (M i))
    (o : Nat) (ho : o + 256 ≤ 1536) : IsReal (reg T A M o ho) :=
  IsReal.sum _ _ fun b _ => IsReal.sum _ _ fun r _ => (a2s_real hA hM b r).mul (sq_real hT o ho b r)

end Row

/-! ### The three sums -/

section Sums

variable {T : ST.Idx → EReal} {A : SA.Idx → EReal} {M : SM.Idx → EReal}

/-- The softplus sum. -/
theorem sp_sum (hT : ∀ i, IsReal (T i)) :
    ∑ c : Fin 2, ∑ j : Fin 8, dSP T A M (tile c j)
      = ∑ b : Fin 256, ∑ s : Fin 64, ∑ r : Fin 128, sp (scoreR T A M b s r) := by
  refine (sum_rows fun b => ∑ s : Fin 64, ∑ r : Fin 128, sp (scoreK T A M b s r)).trans ?_
  refine Finset.sum_congr rfl fun b _ => Finset.sum_congr rfl fun s _ => Finset.sum_congr rfl fun r _ => ?_
  rw [score_eq hT]

/-- The regulariser: tile by tile over all features, or group by group over the batch. -/
theorem reg_sum (hT : ∀ i, IsReal (T i)) (hA : ∀ i, IsReal (A i)) (hM : ∀ i, IsReal (M i)) :
    ∑ c : Fin 2, ∑ j : Fin 8, dREG T A M (tile c j)
      = reg T A M 0 (by norm_num) + reg T A M 256 (by norm_num) + reg T A M 512 (by norm_num)
        + reg T A M 768 (by norm_num) + reg T A M 1024 (by norm_num) + reg T A M 1280 (by norm_num) := by
  refine (sum_rows fun b => ∑ r : Fin 128, a2s A M b r * tsq T b r).trans ?_
  simp only [reg, ← Finset.sum_add_distrib]
  refine Finset.sum_congr rfl fun b _ => Finset.sum_congr rfl fun r _ => ?_
  rw [tsq_split]
  exact mul_add6 (a2s_real hA hM b r) (sq_real hT _ _ b r) (sq_real hT _ _ b r) (sq_real hT _ _ b r)
    (sq_real hT _ _ b r) (sq_real hT _ _ b r) (sq_real hT _ _ b r)

end Sums

/-- The quotient of a sum of six real numbers by 2²⁹ is the sum of the six quotients, in any order. -/
theorem div_six {r0 r1 r2 r3 r4 r5 : EReal} (h0 : IsReal r0) (h1 : IsReal r1) (h2 : IsReal r2) (h3 : IsReal r3)
    (h4 : IsReal r4) (h5 : IsReal r5) :
    Ideal.div (r0 + r1 + r2 + r3 + r4 + r5) den
      = Ideal.div r0 den + Ideal.div r1 den + Ideal.div r4 den + Ideal.div r5 den
        + Ideal.div r2 den + Ideal.div r3 den := by
  have hne : (536870912 : ℝ) ≠ 0 := by norm_num
  simp only [den_eq, Ideal.div_coe hne]
  obtain ⟨v0, rfl⟩ := h0
  obtain ⟨v1, rfl⟩ := h1
  obtain ⟨v2, rfl⟩ := h2
  obtain ⟨v3, rfl⟩ := h3
  obtain ⟨v4, rfl⟩ := h4
  obtain ⟨v5, rfl⟩ := h5
  norm_cast
  ring

/-- The tiled arrangement and the plain arrangement agree on real inputs. -/
theorem kerVal_eq_refVal (T : Cert.Spec.ST.Idx → EReal) (A : Cert.Spec.SA.Idx → EReal) (M : Cert.Spec.SM.Idx → EReal)
    (hT : ∀ i, ∃ x : ℝ, T i = (x : EReal)) (hA : ∀ i, ∃ x : ℝ, A i = (x : EReal))
    (hM : ∀ i, ∃ x : ℝ, M i = (x : EReal)) :
    Cert.Spec.kerVal T A M = Cert.Spec.refVal T A M := by
  unfold kerVal refVal
  rw [sp_sum hT, m_sum, reg_sum hT hA hM,
    div_six (reg_real hT hA hM _ _) (reg_real hT hA hM _ _) (reg_real hT hA hM _ _) (reg_real hT hA hM _ _)
      (reg_real hT hA hM _ _) (reg_real hT hA hM _ _)]

end Cert.Algebra

end
-- ==== Proof.Finite.lean ====
/-
  The printed precondition "every float input is finite", read at the ideal instance: each of the three
  argument arrays has only real entries. The predicate is, per array, the conjunction over all indices of
  |x i| < +∞; a conjunction that is true is true at every index, and an extended real whose absolute
  value max x (-x) is strictly below ⊤ is neither ⊥ nor ⊤, hence a real number.
-/
import proofs.«419007_j82102594831164_3_alg».proof.Pre_finite_inputs
import Idealize.ShloMosaic.Lib.ReduceAll
import Idealize.ShloMosaic.Lib.ValueIdx
import Idealize.ShloMosaic.PureOps.Ideal.Laws
import Idealize.ShloMosaic.Lib.Pipeline.Value

noncomputable section

namespace Cert.Finite

open Idealize.ShloMosaic

/-- The word 0x7F800000 is +∞: the top of the extended reals. -/
theorem inf_bits : (FloatOps.ofBits (F := Ideal) .f32 0x7F800000#32 : EReal) = ⊤ := by
  show Ideal.ofBits .f32 0x7F800000#32 = ⊤
  simp [Ideal.ofBits, Ideal.ieee]

/-- An extended real whose absolute value max x (-x) is strictly below ⊤ is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- One array's share of the predicate: if the conjunction over all indices of |x i| < +∞ is true, every entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  haveI : Subsingleton Cert.Pre_finite_inputs.S_.Idx := ⟨fun a b => funext fun d => d.elim0⟩
  have hi := Host.reduce_andi_all _ _ hr hu ValueIdx.ix0 h i
  refine real_of_abs_lt_top (x i) ?_
  have e : broadcastInDim s ![] hb (constant (F := Ideal) Cert.Pre_finite_inputs.S_ .f32 0x7F800000#32) i = (⊤ : EReal) := inf_bits
  show Ideal.cmp .olt (max (x i) (-(x i))) ⊤ = 1#1
  rw [← e]
  exact hi

/-- The precondition true at the ideal instance: every entry of each of the three argument arrays is a real number. -/
theorem real_of_pre [Cert.Pre_finite_inputs.Facts]
    (x0 : FVec Ideal Cert.Pre_finite_inputs.S256x128x1536 .f32)
    (x1 : FVec Ideal Cert.Pre_finite_inputs.S256x64x128 .f32)
    (x2 : FVec Ideal Cert.Pre_finite_inputs.S256x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 _ _ _ h0', real_of_all x1 _ _ _ h1, real_of_all x2 _ _ _ h2⟩

end Cert.Finite

end
-- ==== Proof.LibSumIdx.lean ====
/-
  Sums over the index set of a rank-1, rank-3 or rank-4 array as iterated sums over the coordinates.
-/
import Idealize.ShloMosaic.Lib.ValueIdx
import Mathlib.Algebra.BigOperators.Fin

noncomputable section

open scoped BigOperators

namespace Cert.SumIdx

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.SumIdx

end
-- ==== Proof.RefValue.lean ====
/-
  The plain program's result, read at the ideal instance, is the specification's `refVal`.

  Every operation of the plain program is read at explicit coordinates: the six feature groups are the six
  slices of the feature array, the masked shifted weight is `(A − 0.1) · M`, the triple-product sum is `s0R`,
  the score is `−a³ · s0`, the guarded stable softplus is `sp`, and the seven total sums are iterated sums over
  the coordinates. The last lemma assembles the quotients and the scaled regulariser.
-/
import proofs.«419007_j82102594831164_3_alg».proof.Proof.Gen.ReferenceIdeal.Read
import proofs.«419007_j82102594831164_3_alg».proof.Proof.Spec
import proofs.«419007_j82102594831164_3_alg».proof.Proof.LibSumIdx
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Read Idealize.ShloMosaic Idealize.ShloMosaic.ValueIdx Cert.Spec Cert.SumIdx

variable (x0 : (⟨S256x128x1536, .f32⟩ : BufTy).Contents (Elt Ideal))
  (x1 : (⟨S256x64x128, .f32⟩ : BufTy).Contents (Elt Ideal))
  (x2 : (⟨S256x64, .f32⟩ : BufTy).Contents (Elt Ideal))

/-! ## The six feature groups are the six slices -/

theorem v6_at (b : Fin 256) (r : Fin 128) (d : Fin 256) :
    val_main_v6 (F := Ideal) x0 (ix3 b r d) = grp x0 0 (by norm_num) b r d := by
  rw [val_main_v6_apply]
  unfold grp
  exact congrArg x0 (funext fun a => Fin.ext (by
    match a with
    | ⟨0, _⟩ => rfl
    | ⟨1, _⟩ => rfl
    | ⟨2, _⟩ => exact (Nat.zero_add _).symm))

theorem v7_at (b : Fin 256) (r : Fin 128) (d : Fin 256) :
    val_main_v7 (F := Ideal) x0 (ix3 b r d) = grp x0 256 (by norm_num) b r d := by
  rw [val_main_v7_apply]
  unfold grp
  exact congrArg x0 (funext fun a => Fin.ext (by
    match a with
    | ⟨0, _⟩ => rfl
    | ⟨1, _⟩ => rfl
    | ⟨2, _⟩ => rfl))

theorem v8_at (b : Fin 256) (r : Fin 128) (d : Fin 256) :
    val_main_v8 (F := Ideal) x0 (ix3 b r d) = grp x0 512 (by norm_num) b r d := by
  rw [val_main_v8_apply]
  unfold grp
  exact congrArg x0 (funext fun a => Fin.ext (by
    match a with
    | ⟨0, _⟩ => rfl
    | ⟨1, _⟩ => rfl
    | ⟨2, _⟩ => rfl))

theorem v9_at (b : Fin 256) (r : Fin 128) (d : Fin 256) :
    val_main_v9 (F := Ideal) x0 (ix3 b r d) = grp x0 768 (by norm_num) b r d := by
  rw [val_main_v9_apply]
  unfold grp
  exact congrArg x0 (funext fun a => Fin.ext (by
    match a with
    | ⟨0, _⟩ => rfl
    | ⟨1, _⟩ => rfl
    | ⟨2, _⟩ => rfl))

theorem v10_at (b : Fin 256) (r : Fin 128) (d : Fin 256) :
    val_main_v10 (F := Ideal) x0 (ix3 b r d) = grp x0 1024 (by norm_num) b r d := by
  rw [val_main_v10_apply]
  unfold grp
  exact congrArg x0 (funext fun a => Fin.ext (by
    match a with
    | ⟨0, _⟩ => rfl
    | ⟨1, _⟩ => rfl
    | ⟨2, _⟩ => rfl))

theorem v11_at (b : Fin 256) (r : Fin 128) (d : Fin 256) :
    val_main_v11 (F := Ideal) x0 (ix3 b r d) = grp x0 1280 (by norm_num) b r d := by
  rw [val_main_v11_apply]
  unfold grp
  exact congrArg x0 (funext fun a => Fin.ext (by
    match a with
    | ⟨0, _⟩ => rfl
    | ⟨1, _⟩ => rfl
    | ⟨2, _⟩ => rfl))

/-! ## The masked, shifted weight -/

theorem v5_at (b : Fin 256) (s : Fin 64) (r : Fin 128) :
    val_main_v5 (F := Ideal) x1 x2 (ix3 b s r) = a x1 x2 b s r := by
  rw [val_main_v5_apply, val_main_v2_apply, val_main_v1_apply, val_main_cst_0_apply, val_main_v4_apply,
    val_main_v3_apply]
  unfold a
  show (x1 (ix3 b s r) - c01) * x2 _ = _
  refine congrArg (fun t => (x1 (ix3 b s r) - c01) * x2 t) (funext fun a => Fin.ext (by
    match a with
    | ⟨0, _⟩ => rfl
    | ⟨1, _⟩ => rfl))

/-! ## The triple-product sum -/

theorem v22_at (b : Fin 256) (r : Fin 128) (d : Fin 256) :
    val_main_v22 (F := Ideal) x0 (ix3 b r d)
      = hre x0 b r d * tre x0 b r d * rre x0 b r d + him x0 b r d * tim x0 b r d * rre x0 b r d
        + hre x0 b r d * tim x0 b r d * rim x0 b r d - him x0 b r d * tre x0 b r d * rim x0 b r d := by
  rw [val_main_v22_apply, val_main_v19_apply, val_main_v21_apply, val_main_v16_apply, val_main_v18_apply,
    val_main_v20_apply, val_main_v13_apply, val_main_v15_apply, val_main_v17_apply, val_main_v12_apply,
    val_main_v14_apply]
  simp only [v6_at, v7_at, v8_at, v9_at, v10_at, v11_at]
  rfl

theorem v23_at (b : Fin 256) (r : Fin 128) :
    val_main_v23 (F := Ideal) x0 (ix2 b r) = s0R x0 b r := by
  rw [val_main_v23_apply, val_main_cst_1_apply]
  simp only [Ideal.ofBits_def, Ideal.ofBits_zero_f32, zero_add]
  unfold s0R
  refine Finset.sum_congr rfl fun d _ => ?_
  have h : idx_main_v23 (ix2 b r) d = ix3 b r d := funext fun a => by
    match a with
    | ⟨0, _⟩ => rfl
    | ⟨1, _⟩ => rfl
    | ⟨2, _⟩ => rfl
  rw [h, v22_at]

/-! ## The score -/

theorem v29_at (b : Fin 256) (s : Fin 64) (r : Fin 128) :
    val_main_v29 (F := Ideal) x0 x1 x2 (ix3 b s r) = scoreR x0 x1 x2 b s r := by
  rw [val_main_v29_apply, val_main_v26_apply, val_main_v25_apply, val_main_v24_apply, val_main_v28_apply,
    val_main_v27_apply, v5_at]
  have h : idx_main_v27 (idx_main_v28 (ix3 b s r)) = ix2 b r := funext fun a => by
    match a with
    | ⟨0, _⟩ => rfl
    | ⟨1, _⟩ => rfl
  rw [h, v23_at]
  rfl

/-! ## The stable softplus: the guard never fires on an extended real -/

theorem softplus_at (y : EReal) :
    Scalar.select (Ideal.cmp .une (y - 0) (y - 0)) (y + 0)
        (max y 0 + Ideal.log1p (Ideal.exp (-(max (y - 0) (-(y - 0))))))
      = sp y := by
  have h : Ideal.cmp .une (y - 0) (y - 0) = 0#1 := by simp [Ideal.cmp]
  rw [h, select_zero, sub_zero]
  rfl

theorem v67_at (b : Fin 256) (s : Fin 64) (r : Fin 128) :
    val_main_v67 (F := Ideal) x0 x1 x2 (ix3 b s r) = sp (scoreR x0 x1 x2 b s r) := by
  rw [val_main_v67_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, v29_at]
  simp only [Ideal.ofBits_def, Ideal.ofBits_zero_f32]
  exact softplus_at _

/-! ## The two total sums of the first quotient -/

theorem v68_at (i : S_.Idx) :
    val_main_v68 (F := Ideal) x0 x1 x2 i
      = ∑ b : Fin 256, ∑ s : Fin 64, ∑ r : Fin 128, sp (scoreR x0 x1 x2 b s r) := by
  rw [val_main_v68_apply, sum_idx3]
  simp only [val_main_cst_21_apply, Ideal.ofBits_def, Ideal.ofBits_zero_f32, zero_add]
  exact Finset.sum_congr rfl fun b _ => Finset.sum_congr rfl fun s _ => Finset.sum_congr rfl fun r _ =>
    v67_at x0 x1 x2 b s r

theorem v0_at (i : S_.Idx) :
    val_main_v0 (F := Ideal) x2 i = ∑ b : Fin 256, ∑ s : Fin 64, x2 (ix2 b s) := by
  rw [val_main_v0_apply, sum_idx2]
  simp only [val_main_cst_apply, Ideal.ofBits_def, Ideal.ofBits_zero_f32, zero_add]

/-! ## The regulariser's factors -/

theorem v31_at (b : Fin 256) (r : Fin 128) :
    val_main_v31 (F := Ideal) x1 x2 (ix2 b r) = a2s x1 x2 b r := by
  rw [val_main_v31_apply]
  simp only [val_main_cst_2_apply, Ideal.ofBits_def, Ideal.ofBits_zero_f32, zero_add]
  unfold a2s
  refine Finset.sum_congr rfl fun s _ => ?_
  have h : idx_main_v31 (ix2 b r) s = ix3 b s r := funext fun a => by
    match a with
    | ⟨0, _⟩ => rfl
    | ⟨1, _⟩ => rfl
    | ⟨2, _⟩ => rfl
  rw [h, val_main_v30_apply, v5_at]
  rfl

theorem v33_at (b : Fin 256) (r : Fin 128) :
    val_main_v33 (F := Ideal) x0 (ix2 b r) = Spec.sq x0 0 (by norm_num) b r := by
  rw [val_main_v33_apply]
  simp only [val_main_cst_3_apply, Ideal.ofBits_def, Ideal.ofBits_zero_f32, zero_add]
  unfold Spec.sq
  refine Finset.sum_congr rfl fun d _ => ?_
  have h : idx_main_v33 (ix2 b r) d = ix3 b r d := funext fun a => by
    match a with
    | ⟨0, _⟩ => rfl
    | ⟨1, _⟩ => rfl
    | ⟨2, _⟩ => rfl
  rw [h, val_main_v32_apply, v6_at]
  rfl

theorem v38_at (b : Fin 256) (r : Fin 128) :
    val_main_v38 (F := Ideal) x0 (ix2 b r) = Spec.sq x0 256 (by norm_num) b r := by
  rw [val_main_v38_apply]
  simp only [val_main_cst_6_apply, Ideal.ofBits_def, Ideal.ofBits_zero_f32, zero_add]
  unfold Spec.sq
  refine Finset.sum_congr rfl fun d _ => ?_
  have h : idx_main_v38 (ix2 b r) d = ix3 b r d := funext fun a => by
    match a with
    | ⟨0, _⟩ => rfl
    | ⟨1, _⟩ => rfl
    | ⟨2, _⟩ => rfl
  rw [h, val_main_v37_apply, v7_at]
  rfl

theorem v44_at (b : Fin 256) (r : Fin 128) :
    val_main_v44 (F := Ideal) x0 (ix2 b r) = Spec.sq x0 1024 (by norm_num) b r := by
  rw [val_main_v44_apply]
  simp only [val_main_cst_9_apply, Ideal.ofBits_def, Ideal.ofBits_zero_f32, zero_add]
  unfold Spec.sq
  refine Finset.sum_congr rfl fun d _ => ?_
  have h : idx_main_v44 (ix2 b r) d = ix3 b r d := funext fun a => by
    match a with
    | ⟨0, _⟩ => rfl
    | ⟨1, _⟩ => rfl
    | ⟨2, _⟩ => rfl
  rw [h, val_main_v43_apply, v10_at]
  rfl

theorem v50_at (b : Fin 256) (r : Fin 128) :
    val_main_v50 (F := Ideal) x0 (ix2 b r) = Spec.sq x0 1280 (by norm_num) b r := by
  rw [val_main_v50_apply]
  simp only [val_main_cst_12_apply, Ideal.ofBits_def, Ideal.ofBits_zero_f32, zero_add]
  unfold Spec.sq
  refine Finset.sum_congr rfl fun d _ => ?_
  have h : idx_main_v50 (ix2 b r) d = ix3 b r d := funext fun a => by
    match a with
    | ⟨0, _⟩ => rfl
    | ⟨1, _⟩ => rfl
    | ⟨2, _⟩ => rfl
  rw [h, val_main_v49_apply, v11_at]
  rfl

theorem v56_at (b : Fin 256) (r : Fin 128) :
    val_main_v56 (F := Ideal) x0 (ix2 b r) = Spec.sq x0 512 (by norm_num) b r := by
  rw [val_main_v56_apply]
  simp only [val_main_cst_15_apply, Ideal.ofBits_def, Ideal.ofBits_zero_f32, zero_add]
  unfold Spec.sq
  refine Finset.sum_congr rfl fun d _ => ?_
  have h : idx_main_v56 (ix2 b r) d = ix3 b r d := funext fun a => by
    match a with
    | ⟨0, _⟩ => rfl
    | ⟨1, _⟩ => rfl
    | ⟨2, _⟩ => rfl
  rw [h, val_main_v55_apply, v8_at]
  rfl

theorem v62_at (b : Fin 256) (r : Fin 128) :
    val_main_v62 (F := Ideal) x0 (ix2 b r) = Spec.sq x0 768 (by norm_num) b r := by
  rw [val_main_v62_apply]
  simp only [val_main_cst_18_apply, Ideal.ofBits_def, Ideal.ofBits_zero_f32, zero_add]
  unfold Spec.sq
  refine Finset.sum_congr rfl fun d _ => ?_
  have h : idx_main_v62 (ix2 b r) d = ix3 b r d := funext fun a => by
    match a with
    | ⟨0, _⟩ => rfl
    | ⟨1, _⟩ => rfl
    | ⟨2, _⟩ => rfl
  rw [h, val_main_v61_apply, v9_at]
  rfl

/-! ## The six regularisers, each a sum over the whole batch -/

theorem v35_at (i : S_.Idx) :
    val_main_v35 (F := Ideal) x0 x1 x2 i = reg x0 x1 x2 0 (by norm_num) := by
  rw [val_main_v35_apply, sum_idx2]
  simp only [val_main_cst_4_apply, Ideal.ofBits_def, Ideal.ofBits_zero_f32, zero_add]
  unfold reg
  refine Finset.sum_congr rfl fun b _ => Finset.sum_congr rfl fun r _ => ?_
  rw [val_main_v34_apply, v31_at, v33_at]
  rfl

theorem v40_at (i : S_.Idx) :
    val_main_v40 (F := Ideal) x0 x1 x2 i = reg x0 x1 x2 256 (by norm_num) := by
  rw [val_main_v40_apply, sum_idx2]
  simp only [val_main_cst_7_apply, Ideal.ofBits_def, Ideal.ofBits_zero_f32, zero_add]
  unfold reg
  refine Finset.sum_congr rfl fun b _ => Finset.sum_congr rfl fun r _ => ?_
  rw [val_main_v39_apply, v31_at, v38_at]
  rfl

theorem v46_at (i : S_.Idx) :
    val_main_v46 (F := Ideal) x0 x1 x2 i = reg x0 x1 x2 1024 (by norm_num) := by
  rw [val_main_v46_apply, sum_idx2]
  simp only [val_main_cst_10_apply, Ideal.ofBits_def, Ideal.ofBits_zero_f32, zero_add]
  unfold reg
  refine Finset.sum_congr rfl fun b _ => Finset.sum_congr rfl fun r _ => ?_
  rw [val_main_v45_apply, v31_at, v44_at]
  rfl

theorem v52_at (i : S_.Idx) :
    val_main_v52 (F := Ideal) x0 x1 x2 i = reg x0 x1 x2 1280 (by norm_num) := by
  rw [val_main_v52_apply, sum_idx2]
  simp only [val_main_cst_13_apply, Ideal.ofBits_def, Ideal.ofBits_zero_f32, zero_add]
  unfold reg
  refine Finset.sum_congr rfl fun b _ => Finset.sum_congr rfl fun r _ => ?_
  rw [val_main_v51_apply, v31_at, v50_at]
  rfl

theorem v58_at (i : S_.Idx) :
    val_main_v58 (F := Ideal) x0 x1 x2 i = reg x0 x1 x2 512 (by norm_num) := by
  rw [val_main_v58_apply, sum_idx2]
  simp only [val_main_cst_16_apply, Ideal.ofBits_def, Ideal.ofBits_zero_f32, zero_add]
  unfold reg
  refine Finset.sum_congr rfl fun b _ => Finset.sum_congr rfl fun r _ => ?_
  rw [val_main_v57_apply, v31_at, v56_at]
  rfl

theorem v64_at (i : S_.Idx) :
    val_main_v64 (F := Ideal) x0 x1 x2 i = reg x0 x1 x2 768 (by norm_num) := by
  rw [val_main_v64_apply, sum_idx2]
  simp only [val_main_cst_19_apply, Ideal.ofBits_def, Ideal.ofBits_zero_f32, zero_add]
  unfold reg
  refine Finset.sum_congr rfl fun b _ => Finset.sum_congr rfl fun r _ => ?_
  rw [val_main_v63_apply, v31_at, v62_at]
  rfl

/-! ## The tail: two quotients and the scaled regulariser -/

/-- The plain program's result term, read at the ideal instance, is `refVal` of its three arguments. -/
theorem ref_eq (i : S_.Idx) : val_main_v71 (F := Ideal) x0 x1 x2 i = refVal x0 x1 x2 := by
  rw [val_main_v71_apply, val_main_v69_apply, val_main_v70_apply, val_main_v66_apply, val_main_v60_apply,
    val_main_v54_apply, val_main_v48_apply, val_main_v42_apply, val_main_v36_apply, val_main_v41_apply,
    val_main_v47_apply, val_main_v53_apply, val_main_v59_apply, val_main_v65_apply,
    v68_at, v0_at, v35_at, v40_at, v46_at, v52_at, v58_at, v64_at]
  rfl

end Cert.RefValue

end
-- ==== Proof.KerPieces.lean ====
/-
  What one grid point leaves in the carried scratch row and, at a core's last step, in the output row.

  The body loads its three input blocks, computes three partial sums from them, puts them in lanes 0, 1 and 2 of a
  128-lane row (zero elsewhere) and adds that row to the scratch row; the first step of a core resets the scratch
  row to zero before, and the last step copies the scratch row to the output row after. So whichever of the three
  control cases a point is in, the scratch row after the point is ONE function `upd` of the point's input blocks
  and of the row before it (the zero row at a first step), and the output row stored at a last step is that row.
-/
import proofs.«419007_j82102594831164_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerPieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid point adds: the scratch row after the point, from the three input blocks and the row before. -/
def upd (x0 : Vec F S16x128x1536 .f32) (x1 : Vec F S16x64x128 .f32) (x2 : Vec F S16x64 .f32) (prev : Vec F S1x1x128 .f32) : Vec F S1x1x128 .f32 :=
  k0_pay9 x0 x2 (k0_pay2 x1 x2) (k0_pay4 x0 x1 x2) (k0_pay6 x0 x1 x2) (k0_pay7 x0 x1 x2) (k0_pay8 x0 x1 x2) (Scalar.ofBits .f32 0x00000000#32) prev

/-- At a core's first step the scratch row is first reset to the zero row and then updated: it ends at the update
    of the zero row. -/
theorem sout_A (c : Dev nD) (i : grid0.Coords) (arg2 : Memref sig .tc .vmem S16x128x1536 .f32) (harg2 : arg2.IsWhole) (arg3 : Memref sig .tc .vmem S16x64x128 .f32) (harg3 : arg3.IsWhole) (arg4 : Memref sig .tc .vmem S16x64 .f32) (harg4 : arg4.IsWhole) (arg5 : Memref sig .tc .vmem S1x1x128 .f32) (harg5 : arg5.IsWhole) (arg6 : Memref sig .tc .vmem S1x1x128 .f32) (harg6 : arg6.IsWhole) (hc0 : cond0_0 i) (hc1 : ¬cond0_1 i)
    (x0 : Vec F S16x128x1536 .f32) (x1 : Vec F S16x64x128 .f32) (x2 : Vec F S16x64 .f32) :
    sout0_A_0 c i arg2 harg2 arg3 harg3 arg4 harg4 arg5 harg5 arg6 harg6 hc0 hc1 x0 x1 x2 = upd x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg6.read_unread,
    View.ld_unit_zero (S := S16x128x1536) hz3, View.ld_unit_zero (S := S16x64x128) hz3, View.ld_unit_zero (S := S16x64) hz2,
    View.ld_unit_zero (S := S1x1x128) hz3]
  rfl

/-- At a middle step the scratch row ends at the update of what the step before left. -/
theorem sout_B (c : Dev nD) (i : grid0.Coords) (arg2 : Memref sig .tc .vmem S16x128x1536 .f32) (harg2 : arg2.IsWhole) (arg3 : Memref sig .tc .vmem S16x64x128 .f32) (harg3 : arg3.IsWhole) (arg4 : Memref sig .tc .vmem S16x64 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : ¬cond0_1 i)
    (x0 : Vec F S16x128x1536 .f32) (x1 : Vec F S16x64x128 .f32) (x2 : Vec F S16x64 .f32) (xs0 : Vec F S1x1x128 .f32) :
    sout0_B_0 c i arg2 harg2 arg3 harg3 arg4 harg4 arg5 harg5 arg6 harg6 hc0 hc1 x0 x1 x2 xs0 = upd x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S16x128x1536) hz3, View.ld_unit_zero (S := S16x64x128) hz3, View.ld_unit_zero (S := S16x64) hz2,
    View.ld_unit_zero (S := S1x1x128) hz3]
  rfl

/-- At a core's last step likewise, -/
theorem sout_C (c : Dev nD) (i : grid0.Coords) (arg2 : Memref sig .tc .vmem S16x128x1536 .f32) (harg2 : arg2.IsWhole) (arg3 : Memref sig .tc .vmem S16x64x128 .f32) (harg3 : arg3.IsWhole) (arg4 : Memref sig .tc .vmem S16x64 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : cond0_1 i)
    (x0 : Vec F S16x128x1536 .f32) (x1 : Vec F S16x64x128 .f32) (x2 : Vec F S16x64 .f32) (xs0 : Vec F S1x1x128 .f32) :
    sout0_C_0 c i arg2 harg2 arg3 harg3 arg4 harg4 arg5 harg5 arg6 harg6 hc0 hc1 x0 x1 x2 xs0 = upd x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S16x128x1536) hz3, View.ld_unit_zero (S := S16x64x128) hz3, View.ld_unit_zero (S := S16x64) hz2,
    View.ld_unit_zero (S := S1x1x128) hz3]
  rfl

/-- and the output row is stored from the scratch row just updated. -/
theorem out_C (c : Dev nD) (i : grid0.Coords) (arg2 : Memref sig .tc .vmem S16x128x1536 .f32) (harg2 : arg2.IsWhole) (arg3 : Memref sig .tc .vmem S16x64x128 .f32) (harg3 : arg3.IsWhole) (arg4 : Memref sig .tc .vmem S16x64 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : cond0_1 i)
    (x0 : Vec F S16x128x1536 .f32) (x1 : Vec F S16x64x128 .f32) (x2 : Vec F S16x64 .f32) (xs0 : Vec F S1x1x128 .f32) :
    out0_C_3 c i arg2 harg2 arg3 harg3 arg4 harg4 arg5 harg5 arg6 harg6 hc0 hc1 x0 x1 x2 xs0 = upd x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x128) _ hz3]
  simp only [View.readAt_eq_ld, harg2.read_unread, harg3.read_unread, harg4.read_unread, harg6.read_unread,
    View.ld_unit_zero (S := S16x128x1536) hz3, View.ld_unit_zero (S := S16x64x128) hz3, View.ld_unit_zero (S := S16x64) hz2,
    View.ld_unit_zero (S := S1x1x128) hz3]
  rfl

end Cert.KernelIdeal.KerPieces
end
-- ==== Proof.KerAcc.lean ====
/-
  The accumulator row point by point.

  The grid has 16 points, 8 per core. The generated run says what the carried scratch row and the output row hold
  after each point, by cases on the point's place in its core's run; with the three cases' values all one function
  (the update of the row before, or of the zero row at a core's first step) these are one recursion, solved here
  by induction on the point.
-/
import proofs.«419007_j82102594831164_3_alg».proof.Proof.KerPieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerAcc

open Cert.KernelIdeal Cert.KernelIdeal.Gen Cert.KernelIdeal.KerPieces

variable {F : FTy → Type} [FloatOps F]
variable (m : (ℓ : Loc nD τ sig) → Buf (Elt F) ℓ)

/-- The three input blocks of grid point `t`, at their literal types. -/
abbrev blk0 (c : Dev nD) (t : Fin cfg0.N) : Vec F S16x128x1536 .f32 := iblk m c 0 t
abbrev blk1 (c : Dev nD) (t : Fin cfg0.N) : Vec F S16x64x128 .f32 := iblk m c 1 t
abbrev blk2 (c : Dev nD) (t : Fin cfg0.N) : Vec F S16x64 .f32 := iblk m c 2 t

/-- The accumulator row after point `n`: the update of the zero row at a core's first step (every eighth point),
    of the row after the point before otherwise. -/
def acc (c : Dev nD) : (n : ℕ) → n < cfg0.N → Vec F S1x1x128 .f32
  | 0, h => upd (blk0 m c ⟨0, h⟩) (blk1 m c ⟨0, h⟩) (blk2 m c ⟨0, h⟩) k0_pay1
  | n + 1, h => upd (blk0 m c ⟨n + 1, h⟩) (blk1 m c ⟨n + 1, h⟩) (blk2 m c ⟨n + 1, h⟩)
      (if (n + 1) % 8 = 0 then k0_pay1 else acc c n (Nat.lt_of_succ_lt h))

/-- What the carried scratch row holds after each point is the accumulator row. -/
theorem scratch_eq (c : Dev nD) : ∀ (n : ℕ) (h : n < cfg0.N), (outsAt0 m c n h).2 = acc m c n h
  | 0, h => by
    rw [outsAt0_A m c ⟨0, h⟩ rfl (by show ¬0 % 8 = 7; decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (blk0 m c ⟨0, h⟩) (blk1 m c ⟨0, h⟩) (blk2 m c ⟨0, h⟩)
  | n + 1, h => by
    have hN : cfg0.N = 16 := N_0
    by_cases h0 : (n + 1) % 8 = 0
    · have h1 : ¬(n + 1) % 8 = 7 := by omega
      rw [outsAt0_A m c ⟨n + 1, h⟩ h0 h1]
      dsimp only
      rw [sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (blk0 m c ⟨n + 1, h⟩) (blk1 m c ⟨n + 1, h⟩) (blk2 m c ⟨n + 1, h⟩)]
      show _ = upd _ _ _ (if (n + 1) % 8 = 0 then k0_pay1 else _)
      rw [if_pos h0]
    · by_cases h1 : (n + 1) % 8 = 7
      · rw [outsAt0_C m c ⟨n + 1, h⟩ h0 h1]
        dsimp only
        rw [sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (blk0 m c ⟨n + 1, h⟩) (blk1 m c ⟨n + 1, h⟩) (blk2 m c ⟨n + 1, h⟩)]
        show upd _ _ _ (outsAt0 m c n _).2 = upd _ _ _ (if (n + 1) % 8 = 0 then k0_pay1 else _)
        rw [if_neg h0, scratch_eq c n]
      · rw [outsAt0_B m c ⟨n + 1, h⟩ h0 h1]
        dsimp only
        rw [sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (blk0 m c ⟨n + 1, h⟩) (blk1 m c ⟨n + 1, h⟩) (blk2 m c ⟨n + 1, h⟩)]
        show upd _ _ _ (outsAt0 m c n _).2 = upd _ _ _ (if (n + 1) % 8 = 0 then k0_pay1 else _)
        rw [if_neg h0, scratch_eq c n]

/-- At a core's last step the output row is the accumulator row. -/
theorem out_eq (c : Dev nD) (t : Fin cfg0.N) (h7 : t.val % 8 = 7) : (outsAt0 m c t.val t.isLt).1 = acc m c t.val t.isLt := by
  obtain ⟨n, hn⟩ := t
  cases n with
  | zero => exact absurd h7 (by show ¬0 % 8 = 7; decide)
  | succ n =>
    have h0 : ¬(n + 1) % 8 = 0 := by dsimp only at h7; omega
    rw [outsAt0_C m c ⟨n + 1, hn⟩ h0 h7]
    dsimp only
    rw [out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (blk0 m c ⟨n + 1, hn⟩) (blk1 m c ⟨n + 1, hn⟩) (blk2 m c ⟨n + 1, hn⟩)]
    show upd _ _ _ (outsAt0 m c n _).2 = upd _ _ _ (if (n + 1) % 8 = 0 then k0_pay1 else _)
    rw [if_neg h0, scratch_eq m c n]

end Cert.KernelIdeal.KerAcc

end
-- ==== Proof.KerFinal.lean ====
/-
  From the accumulator rows to the program's result.

  The output window's block is one row of the `[2, 1, 128]` result array; it is written back once per core, after the
  core's last step, so the array ends with row `q` at the accumulator row after point `8 q + 7`. The lines after
  the call read lanes 0, 1 and 2 of the two rows.
-/
import proofs.«419007_j82102594831164_3_alg».proof.Proof.KerAcc
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerFinal

open Cert.KernelIdeal Cert.KernelIdeal.Gen Cert.KernelIdeal.KerPieces Cert.KernelIdeal.KerAcc

variable {F : FTy → Type} [FloatOps F]
variable (m : (ℓ : Loc nD τ sig) → Buf (Elt F) ℓ) (ρ : Dev nD → PrngReg)

theorem acc_congr (c : Dev nD) {n n' : ℕ} (e : n = n') (h : n < cfg0.N) (h' : n' < cfg0.N) : acc m c n h = acc m c n' h' := by
  subst e; rfl

/-- The result array `[2, 1, 128]`: its row `q` is the accumulator row after core `q`'s last step, point `8 q + 7`. -/
def res (c : Dev nD) : Buf (Elt F) ((c : Thread nD τ).loc main_v0) := fun i =>
  acc m c (8 * (i 0).val + 7) (by have h2 : (i 0).val < 2 := (i 0).isLt; rw [show cfg0.N = 16 from N_0]; omega)
    (ix3 (0 : Fin 1) (i 1) (i 2))

/-- The output window's block index, decided over the grid: point `t` writes row `t / 8`. -/
theorem idx_facts3 : ∀ t : Fin cfg0.N, win0_3.index t (0 : Fin 3) = t.val / 8 ∧ win0_3.index t (1 : Fin 3) = 0 ∧ win0_3.index t (2 : Fin 3) = 0 :=
  (by decide +kernel : ∀ t : Fin grid0.N, _)

/-- What a core's last step writes back is its row of `res`. -/
theorem flushed_eq (c : Dev nD) (t : Fin cfg0.N) (hf : (cfg0.win 3).flush t = true) :
    (dats m 0 c).flushed 3 t = ((cfg0.win 3).blk t).view.read (Elt F) (res m c) := by
  have h7 := (flush0_3 t).mp hf
  show (cfg0.win 3).cut (grid0.coords t) ((dats m 0 c).after 3 t) = _
  rw [after0_3, out_eq m c t h7]
  obtain ⟨e0, e1, e2⟩ := idx_facts3 t
  funext j
  have hj0 : (j 0).val < 1 := (j 0).isLt
  have hj1 : (j 1).val < 1 := (j 1).isLt
  have hj2 : (j 2).val < 128 := (j 2).isLt
  have hn : 8 * ((((cfg0.win 3).blk t).view.emb j) 0).val + 7 = t.val := by
    show 8 * (win0_3.index t (0 : Fin 3) * 1 + 1 * (j 0).val) + 7 = t.val
    omega
  show acc m c t.val t.isLt (fun a => ⟨(j a).val, _⟩) = res m c (((cfg0.win 3).blk t).view.emb j)
  unfold res
  rw [acc_congr m c hn _ t.isLt]
  refine congrArg (acc m c t.val t.isLt) (funext fun a => Fin.ext ?_)
  match a with
  | ⟨0, _⟩ => show (j 0).val = 0; omega
  | ⟨1, _⟩ => show (j 1).val = win0_3.index t (1 : Fin 3) * 1 + 1 * (j 1).val; omega
  | ⟨2, _⟩ => show (j 2).val = win0_3.index t (2 : Fin 3) * 128 + 1 * (j 2).val; omega

/-- Row `q` of the result array is covered by core `q`'s last step. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  have hN : cfg0.N = 16 := N_0
  let t : Fin cfg0.N := ⟨8 * (i 0).val + 7, by omega⟩
  have ht : t.val = 8 * (i 0).val + 7 := rfl
  obtain ⟨e0, e1, e2⟩ := idx_facts3 t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

/-- So the result array ends at `res`. -/
theorem final (c : Dev nD) : (dats m 0 c).arrAt 3 cfg0.N = res m c :=
  (dats m 0 c).arrAt_eq_of_cover 3 (res m c) (flushed_eq m c) (cover c)

theorem v13_rest : main_v13 ∈ Pipeline.restRefs sig spec0 :=
  Pipeline.mem_restRefs_of main_v13 rfl (fun w => by fin_cases w <;> decide)

/-- The lines after the call as one function of the result array: lanes 0, 1 and 2 of the two rows are each summed
    over the two cores; the first sum is divided by the third, the second by 2²⁹ and scaled by 0.01, and the two are added. -/
def tailOf (G : FVec F S2x1x128 .f32) : FVec F S_ .f32 :=
  addf
    (Host.divf
      (Host.reduceAdd (shapeCast S2 (extractStridedSlice S2x1x1 ![0, 0, 0] G slices_S2x1x128_S2x1x1_0_0_0) shapeCasts_S2x1x1_S2)
        (constant (F := F) S_ .f32 0x00000000#32) reducesTo_S2_S_d0 h_S_)
      (Host.reduceAdd (shapeCast S2 (extractStridedSlice S2x1x1 ![0, 0, 2] G slices_S2x1x128_S2x1x1_0_0_2) shapeCasts_S2x1x1_S2)
        (constant (F := F) S_ .f32 0x00000000#32) reducesTo_S2_S_d0 h_S_))
    (mulf (constant (F := F) S_ .f32 0x3C23D70A#32)
      (Host.divf
        (Host.reduceAdd (shapeCast S2 (extractStridedSlice S2x1x1 ![0, 0, 1] G slices_S2x1x128_S2x1x1_0_0_1) shapeCasts_S2x1x1_S2)
          (constant (F := F) S_ .f32 0x00000000#32) reducesTo_S2_S_d0 h_S_)
        (constant (F := F) S_ .f32 0x4E000000#32)))

/-- The program's result is that function of `res`. -/
theorem tail_eq (c : Dev nD) :
    Pipeline.afterTail₀ cfgs (dats m) 0 (V0 m) [hostOps1] c main_v13 = tailOf (res m c) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.tc.devRef main_v0) = res m c :=
    (Pipeline.withArrays_arr spec0 launch0.win.arr_inj c _ _ 3).trans (final m c)
  rw [hw]
  rfl

/-- The run, read: the result at that function of `res`, the arguments unchanged. -/
theorem run : θ_run defs (onTc (τ := τ) (main (F := F))) ⟨m, fun _ => 0, ρ⟩ fun r => ∀ c : Dev nD,
      r.2.mem ((c : Thread nD τ).loc main_v13) = tailOf (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v13 v13_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KerFinal

end
-- ==== Proof.KerElem.lean ====
/-
  The masked, shifted weight inside one tile: the body's first product, read at an entry of the tile.
-/
import proofs.«419007_j82102594831164_3_alg».proof.Proof.Gen.KernelIdeal.Skeleton
import proofs.«419007_j82102594831164_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.KerLane

open Cert.KernelIdeal Cert.KernelIdeal.Gen

/-- The mask block `[16, 64]` viewed `[16, 64, 1]` and broadcast along the last axis reads the mask at `(b', s)`. -/
theorem mask_bcast_apply (B2 : FVec Ideal S16x64 .f32) (b' : Fin 16) (s : Fin 64) (r : Fin 128) :
    broadcastTo S16x64x128 (shapeCast S16x64x1 B2 shapeCasts_S16x64_S16x64x1) broadcasts_S16x64x1_S16x64x128 (ix3 b' s r)
      = B2 (ix2 b' s) := by
  refine (broadcastTo_apply _ broadcasts_S16x64x1_S16x64x128 (ix3 b' s r) (ix3 b' s (0 : Fin 1)) (fun a => ?_)).trans ?_
  · match a with
    | ⟨0, _⟩ => rfl
    | ⟨1, _⟩ => rfl
    | ⟨2, _⟩ => rfl
  · refine shapeCast_apply B2 shapeCasts_S16x64_S16x64x1 (ix3 b' s (0 : Fin 1)) (ix2 b' s) ?_
    rw [Shape.rowMajor_val_two, Shape.rowMajor_val_three]
    show b'.val * 64 + s.val = (b'.val * 64 + s.val) * 1 + 0
    omega

/-- Entry `(b', s, r)` of the tile's masked, shifted weight is the specification's `a` at the tile's row `b'`. -/
theorem pay2_apply (A : Cert.Spec.SA.Idx → EReal) (M : Cert.Spec.SM.Idx → EReal) (t : Fin 16)
    (B1 : FVec Ideal S16x64x128 .f32) (B2 : FVec Ideal S16x64 .f32)
    (hB1 : ∀ (b' : Fin 16) (s : Fin 64) (r : Fin 128), B1 (ix3 b' s r) = A (ix3 (Cert.Spec.row t b') s r))
    (hB2 : ∀ (b' : Fin 16) (s : Fin 64), B2 (ix2 b' s) = M (ix2 (Cert.Spec.row t b') s))
    (b' : Fin 16) (s : Fin 64) (r : Fin 128) :
    (k0_pay2 (F := Ideal) B1 B2) (ix3 b' s r) = Cert.Spec.a A M (Cert.Spec.row t b') s r := by
  unfold k0_pay2
  rw [mulf_apply, subf_apply, mask_bcast_apply, hB1, hB2]
  rfl

end Cert.KernelIdeal.KerLane

end
-- ==== Proof.KerLane0.lean ====
/-
  Lane 0 of what one grid point adds to its 128-lane accumulator row, read at the ideal instance: the tile's share of
  the softplus sum.

  Inside a tile the score at `(b', s, r)` is `(0 − a·(a·a)) · s0`, with `s0` the sum over 256 features of the
  factored triple product of the six feature groups (each group a slice of the tile's feature block) and `a` the
  masked, shifted weight; the softplus is the stable form under a guard `y ≠ y` that no extended real fires; the
  point sums it over the whole tile and adds the sum to lane 0.
-/
import proofs.«419007_j82102594831164_3_alg».proof.Proof.KerPieces
import proofs.«419007_j82102594831164_3_alg».proof.Proof.KerElem
import proofs.«419007_j82102594831164_3_alg».proof.Proof.LibSumIdx
import proofs.«419007_j82102594831164_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.KerLane

open Cert.KernelIdeal Cert.KernelIdeal.Gen Cert.KernelIdeal.KerPieces

theorem s0_bcast_apply (v : FVec Ideal S16x128 .f32) (b' : Fin 16) (s : Fin 64) (r : Fin 128) :
    broadcastTo S16x64x128 (shapeCast S16x1x128 v shapeCasts_S16x128_S16x1x128) broadcasts_S16x1x128_S16x64x128 (ix3 b' s r)
      = v (ix2 b' r) := by
  refine (broadcastTo_apply _ broadcasts_S16x1x128_S16x64x128 (ix3 b' s r) (ix3 b' (0 : Fin 1) r) (fun a => ?_)).trans ?_
  · match a with
    | ⟨0, _⟩ => rfl
    | ⟨1, _⟩ => rfl
    | ⟨2, _⟩ => rfl
  · refine shapeCast_apply v shapeCasts_S16x128_S16x1x128 (ix3 b' (0 : Fin 1) r) (ix2 b' r) ?_
    rw [Shape.rowMajor_val_two, Shape.rowMajor_val_three]
    show b'.val * 128 + r.val = (b'.val * 1 + 0) * 128 + r.val
    omega

theorem slice_apply (B0 : FVec Ideal S16x128x1536 .f32) (o : Nat) (ho : o + 256 ≤ 1536)
    (h : S16x128x1536.Slices ![0, 0, o] S16x128x256) (b' : Fin 16) (r : Fin 128) (k : Fin 256) :
    extractStridedSlice S16x128x256 ![0, 0, o] B0 h (ix3 b' r k) = B0 (ix3 b' r (⟨o + k.val, by omega⟩ : Fin 1536)) :=
  extractStridedSlice_apply _ B0 h _ _ (fun a => match a with
    | ⟨0, _⟩ => by show b'.val = 0 + b'.val; omega
    | ⟨1, _⟩ => by show r.val = 0 + r.val; omega
    | ⟨2, _⟩ => rfl)

theorem grp_apply (T : Cert.Spec.ST.Idx → EReal) (t : Fin 16) (B0 : FVec Ideal S16x128x1536 .f32)
    (hB0 : ∀ (b' : Fin 16) (r : Fin 128) (f : Fin 1536), B0 (ix3 b' r f) = T (ix3 (Cert.Spec.row t b') r f))
    (o : Nat) (ho : o + 256 ≤ 1536) (h : S16x128x1536.Slices ![0, 0, o] S16x128x256) (b' : Fin 16) (r : Fin 128) (k : Fin 256) :
    extractStridedSlice S16x128x256 ![0, 0, o] B0 h (ix3 b' r k) = Cert.Spec.grp T o ho (Cert.Spec.row t b') r k :=
  (slice_apply B0 o ho h b' r k).trans (hB0 _ _ _)

theorem pay3_apply (T : Cert.Spec.ST.Idx → EReal) (A : Cert.Spec.SA.Idx → EReal) (M : Cert.Spec.SM.Idx → EReal) (t : Fin 16)
    (B0 : FVec Ideal S16x128x1536 .f32) (B1 : FVec Ideal S16x64x128 .f32) (B2 : FVec Ideal S16x64 .f32)
    (hB0 : ∀ (b' : Fin 16) (r : Fin 128) (f : Fin 1536), B0 (ix3 b' r f) = T (ix3 (Cert.Spec.row t b') r f))
    (hB1 : ∀ (b' : Fin 16) (s : Fin 64) (r : Fin 128), B1 (ix3 b' s r) = A (ix3 (Cert.Spec.row t b') s r))
    (hB2 : ∀ (b' : Fin 16) (s : Fin 64), B2 (ix2 b' s) = M (ix2 (Cert.Spec.row t b') s))
    (b' : Fin 16) (s : Fin 64) (r : Fin 128) :
    (k0_pay3 (F := Ideal) B0 B1 B2) (ix3 b' s r) = Cert.Spec.scoreK T A M (Cert.Spec.row t b') s r := by
  unfold k0_pay3
  simp only [mulf_apply, subf_apply, broadcast_apply, pay2_apply A M t B1 B2 hB1 hB2, s0_bcast_apply]
  unfold Cert.Spec.scoreK Cert.Spec.s0K
  rw [show FloatOps.ofBits (F := Ideal) .f32 0#32 = (0 : EReal) from Ideal.ofBits_zero_f32]
  refine congrArg (_ * ·) ((Ideal.multiReduction_add_single _ _ reduces_S16x128x256_S16x128 _ _ (ix2 b' r)).trans ?_)
  refine Finset.sum_congr rfl ?_
  intro (k : Fin 256) _
  have hl : reduces_S16x128x256_S16x128.lift (ix2 b' r) k = ix3 b' r k := funext fun a => match a with
    | ⟨0, _⟩ => rfl
    | ⟨1, _⟩ => rfl
    | ⟨2, _⟩ => rfl
  rw [hl]
  simp only [addf_apply, mulf_apply, subf_apply]
  rw [grp_apply T t B0 hB0 0 (by norm_num), grp_apply T t B0 hB0 256 (by norm_num), grp_apply T t B0 hB0 512 (by norm_num),
    grp_apply T t B0 hB0 768 (by norm_num), grp_apply T t B0 hB0 1024 (by norm_num), grp_apply T t B0 hB0 1280 (by norm_num)]

theorem softplus_eq (y : EReal) :
    Scalar.select (Ideal.cmp .one (y - 0) (y - 0)) (y + 0)
        (max y 0 + Ideal.log1p (Ideal.exp (0 - max (y - 0) (-(y - 0)))))
      = Cert.Spec.sp y := by
  have h : Ideal.cmp .one (y - 0) (y - 0) = 0#1 := by simp [Ideal.cmp]
  rw [h, select_zero, sub_zero, zero_sub]
  rfl

theorem upd_lane0 (T : Cert.Spec.ST.Idx → EReal) (A : Cert.Spec.SA.Idx → EReal) (M : Cert.Spec.SM.Idx → EReal) (t : Fin 16)
    (B0 : FVec Ideal S16x128x1536 .f32) (B1 : FVec Ideal S16x64x128 .f32) (B2 : FVec Ideal S16x64 .f32)
    (hB0 : ∀ (b' : Fin 16) (r : Fin 128) (f : Fin 1536), B0 (ix3 b' r f) = T (ix3 (Cert.Spec.row t b') r f))
    (hB1 : ∀ (b' : Fin 16) (s : Fin 64) (r : Fin 128), B1 (ix3 b' s r) = A (ix3 (Cert.Spec.row t b') s r))
    (hB2 : ∀ (b' : Fin 16) (s : Fin 64), B2 (ix2 b' s) = M (ix2 (Cert.Spec.row t b') s))
    (prev : FVec Ideal S1x1x128 .f32) :
    upd (F := Ideal) B0 B1 B2 prev (ix3 (0 : Fin 1) (0 : Fin 1) (0 : Fin 128)) = prev (ix3 0 0 0) + Cert.Spec.dSP T A M t := by
  unfold upd k0_pay9
  rw [shapeCast_self, addf_apply, select_apply]
  have hc : cmpi CmpIPredicate.eq (iota Kind.tc S1x1x128 32 [2] iota_S1x1x128_d2_w32) (broadcast S1x1x128 0#32)
      (ix3 (0 : Fin 1) (0 : Fin 1) (0 : Fin 128)) = 1#1 := by
    show IntOp.cmpi .eq (iota Kind.tc S1x1x128 32 [2] iota_S1x1x128_d2_w32 (ix3 (0 : Fin 1) (0 : Fin 1) (0 : Fin 128))) 0#32 = 1#1
    rw [iota_single_apply]
    rfl
  rw [hc, select_one, broadcast_apply]
  refine congrArg (prev (ix3 0 0 0) + ·) ?_
  show (multiReduction FKind.add [1, 2, 3] S1 _ (0#32) reduces_S1x16x64x128_S1 (.inl rfl) rfl) _ = _
  refine (Ideal.multiReduction_add_total _ (0#32) reduces_S1x16x64x128_S1 (fun b => by fin_cases b; rfl) (.inl rfl) rfl _).trans ?_
  rw [Cert.SumIdx.sum_idx4, Fin.sum_univ_one]
  unfold Cert.Spec.dSP
  refine Finset.sum_congr rfl fun b' _ => Finset.sum_congr rfl fun s _ => Finset.sum_congr rfl fun r _ => ?_
  rw [shapeCast_abc_1abc_apply, select_apply]
  unfold k0_pay6 k0_pay7 k0_pay4 k0_pay8 k0_pay5
  simp only [cmpf_apply, addf_apply, subf_apply, maximumf_apply, broadcast_apply, pay3_apply T A M t B0 B1 B2 hB0 hB1 hB2]
  show Scalar.select (Ideal.cmp .one _ _) _ (_ + Ideal.log1p (Ideal.exp
    ((subf (broadcast S16x64x128 (FloatOps.ofBits (F := Ideal) .f32 0#32))
      (absf (subf (k0_pay3 (F := Ideal) B0 B1 B2) (broadcast S16x64x128 (FloatOps.ofBits (F := Ideal) .f32 0#32))))) (ix3 b' s r)))) = _
  rw [subf_apply, broadcast_apply]
  show Scalar.select (Ideal.cmp .one _ _) _ (_ + Ideal.log1p (Ideal.exp
    (_ - max ((subf (k0_pay3 (F := Ideal) B0 B1 B2) (broadcast S16x64x128 (FloatOps.ofBits (F := Ideal) .f32 0#32))) (ix3 b' s r))
      (-((subf (k0_pay3 (F := Ideal) B0 B1 B2) (broadcast S16x64x128 (FloatOps.ofBits (F := Ideal) .f32 0#32))) (ix3 b' s r)))))) = _
  rw [subf_apply, broadcast_apply, pay3_apply T A M t B0 B1 B2 hB0 hB1 hB2]
  simp only [Ideal.ofBits_def, Ideal.ofBits_zero_f32]
  exact softplus_eq _

end Cert.KernelIdeal.KerLane

end
-- ==== Proof.KerLane12.lean ====
/-
  Lanes 1 and 2 of what one grid point adds to its 128-lane accumulator row, read at the ideal instance: lane 1 gains
  the tile's share of the regulariser, lane 2 the tile's share of the mask sum.
-/
import proofs.«419007_j82102594831164_3_alg».proof.Proof.KerPieces
import proofs.«419007_j82102594831164_3_alg».proof.Proof.KerElem
import proofs.«419007_j82102594831164_3_alg».proof.Proof.Spec
import proofs.«419007_j82102594831164_3_alg».proof.Proof.LibSumIdx
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.KerLane

open Cert.KernelIdeal Cert.KernelIdeal.Gen Cert.KernelIdeal.KerPieces Cert.SumIdx

namespace Lane12

/-- The lane test: the lane number of lane `l` compared with a constant word. -/
theorem lane_eq (l : Fin 128) (c : BitVec 32) :
    cmpi .eq (iota .tc S1x1x128 32 [2] iota_S1x1x128_d2_w32) (broadcast S1x1x128 c) (ix3 (0 : Fin 1) (0 : Fin 1) l)
      = IntOp.cmpi .eq (BitVec.ofNat 32 l.val) c := by
  show IntOp.cmpi .eq (iota .tc S1x1x128 32 [2] iota_S1x1x128_d2_w32 (ix3 0 0 l)) c = _
  rw [iota_single_apply]

/-- The one element of a sum over every axis, kept as a one-element vector, viewed `[1, 1, 1]` and extracted: the total
    sum over the source. -/
theorem total_extract {s : Shape} {axes : List (Fin s.rank)} (src : FVec Ideal s .f32) (h : s.Reduces axes S1)
    (hφ : FKind.Formats .f32) (hacc : @Eq (BitVec FTy.f32.bits) 0x00000000#32 0x00000000#32)
    (hc : S1.ShapeCasts S1x1x1) (hp : ∀ a, (![0, 0, 0] : Fin 3 → Nat) a < S1x1x1.size a) :
    extractAt ![0, 0, 0] (shapeCast S1x1x1 (multiReduction .add axes S1 src 0x00000000#32 h hφ hacc) hc) hp
      = ∑ i : s.Idx, src i :=
  Ideal.multiReduction_add_total src _ h (fun b => by match b with | ⟨0, _⟩ => rfl) hφ hacc _

/-- The sum over the middle axis of a `[16, 64, 128]` block, at `(b', r)`. -/
theorem sum_axis1 (X : FVec Ideal S16x64x128 .f32) (hφ : FKind.Formats .f32)
    (hacc : @Eq (BitVec FTy.f32.bits) 0x00000000#32 0x00000000#32) (b' : Fin 16) (r : Fin 128) :
    multiReduction .add [1] S16x128 X 0x00000000#32 reduces_S16x64x128_S16x128 hφ hacc (ix2 b' r)
      = ∑ s : Fin 64, X (ix3 b' s r) := by
  refine (Ideal.multiReduction_add_single X 0x00000000#32 reduces_S16x64x128_S16x128 hφ hacc (ix2 b' r)).trans ?_
  refine Finset.sum_congr rfl fun s _ => congrArg X ?_
  funext c
  match c with
  | ⟨0, _⟩ => rfl
  | ⟨1, _⟩ => rfl
  | ⟨2, _⟩ => rfl

/-- The sum over the last axis of a `[16, 128, 1536]` block, at `(b', r)`. -/
theorem sum_axis2 (X : FVec Ideal S16x128x1536 .f32) (hφ : FKind.Formats .f32)
    (hacc : @Eq (BitVec FTy.f32.bits) 0x00000000#32 0x00000000#32) (b' : Fin 16) (r : Fin 128) :
    multiReduction .add [2] S16x128 X 0x00000000#32 reduces_S16x128x1536_S16x128 hφ hacc (ix2 b' r)
      = ∑ f : Fin 1536, X (ix3 b' r f) := by
  refine (Ideal.multiReduction_add_single X 0x00000000#32 reduces_S16x128x1536_S16x128 hφ hacc (ix2 b' r)).trans ?_
  refine Finset.sum_congr rfl fun f _ => congrArg X ?_
  funext c
  match c with
  | ⟨0, _⟩ => rfl
  | ⟨1, _⟩ => rfl
  | ⟨2, _⟩ => rfl

end Lane12

open Lane12

/-- Lane 1: the point adds the tile's share of the regulariser, `Σ_{b', r} (Σ_s a²) · (Σ_f T²)`. -/
theorem upd_lane1 (T : Cert.Spec.ST.Idx → EReal) (A : Cert.Spec.SA.Idx → EReal) (M : Cert.Spec.SM.Idx → EReal) (t : Fin 16)
    (B0 : FVec Ideal S16x128x1536 .f32) (B1 : FVec Ideal S16x64x128 .f32) (B2 : FVec Ideal S16x64 .f32)
    (hB0 : ∀ (b' : Fin 16) (r : Fin 128) (f : Fin 1536), B0 (ix3 b' r f) = T (ix3 (Cert.Spec.row t b') r f))
    (hB1 : ∀ (b' : Fin 16) (s : Fin 64) (r : Fin 128), B1 (ix3 b' s r) = A (ix3 (Cert.Spec.row t b') s r))
    (hB2 : ∀ (b' : Fin 16) (s : Fin 64), B2 (ix2 b' s) = M (ix2 (Cert.Spec.row t b') s))
    (prev : FVec Ideal S1x1x128 .f32) :
    upd (F := Ideal) B0 B1 B2 prev (ix3 (0 : Fin 1) (0 : Fin 1) (1 : Fin 128))
      = prev (ix3 0 0 1) + Cert.Spec.dREG T A M t := by
  unfold upd k0_pay9
  dsimp only
  -- the row read at lane 1: the lane number 1 is not 0 and is 1, so the second of the three scalars is added
  rw [shapeCast_self, addf_apply, select_apply, select_apply, select_apply, lane_eq, lane_eq, lane_eq]
  rw [show IntOp.cmpi .eq (BitVec.ofNat 32 (1 : Fin 128).val) 0#32 = 0#1 from rfl, select_zero,
    show IntOp.cmpi .eq (BitVec.ofNat 32 (1 : Fin 128).val) 1#32 = 1#1 from rfl, select_one, broadcast_apply,
    total_extract, sum_idx3, Fin.sum_univ_one]
  -- that scalar is the sum over the tile's rows and columns of the product of the two inner sums
  unfold Cert.Spec.dREG
  refine congrArg (prev (ix3 0 0 1) + ·) ?_
  refine Finset.sum_congr rfl fun b' _ => Finset.sum_congr rfl fun r _ => ?_
  rw [shapeCast_ab_1ab_apply, mulf_apply, sum_axis1, sum_axis2]
  unfold Cert.Spec.a2s Cert.Spec.tsq
  refine congrArg₂ (· * ·) ?_ ?_
  · refine Finset.sum_congr rfl fun s _ => ?_
    rw [mulf_apply, pay2_apply A M t B1 B2 hB1 hB2]
  · refine Finset.sum_congr rfl fun f _ => ?_
    rw [mulf_apply, hB0]

/-- Lane 2: the point adds the tile's share of the mask sum. -/
theorem upd_lane2 (T : Cert.Spec.ST.Idx → EReal) (A : Cert.Spec.SA.Idx → EReal) (M : Cert.Spec.SM.Idx → EReal) (t : Fin 16)
    (B0 : FVec Ideal S16x128x1536 .f32) (B1 : FVec Ideal S16x64x128 .f32) (B2 : FVec Ideal S16x64 .f32)
    (hB0 : ∀ (b' : Fin 16) (r : Fin 128) (f : Fin 1536), B0 (ix3 b' r f) = T (ix3 (Cert.Spec.row t b') r f))
    (hB1 : ∀ (b' : Fin 16) (s : Fin 64) (r : Fin 128), B1 (ix3 b' s r) = A (ix3 (Cert.Spec.row t b') s r))
    (hB2 : ∀ (b' : Fin 16) (s : Fin 64), B2 (ix2 b' s) = M (ix2 (Cert.Spec.row t b') s))
    (prev : FVec Ideal S1x1x128 .f32) :
    upd (F := Ideal) B0 B1 B2 prev (ix3 (0 : Fin 1) (0 : Fin 1) (2 : Fin 128))
      = prev (ix3 0 0 2) + Cert.Spec.dM M t := by
  unfold upd k0_pay9
  dsimp only
  -- the row read at lane 2: the lane number 2 is neither 0 nor 1 and is 2, so the third scalar is added
  rw [shapeCast_self, addf_apply, select_apply, select_apply, select_apply, lane_eq, lane_eq, lane_eq]
  rw [show IntOp.cmpi .eq (BitVec.ofNat 32 (2 : Fin 128).val) 0#32 = 0#1 from rfl, select_zero,
    show IntOp.cmpi .eq (BitVec.ofNat 32 (2 : Fin 128).val) 1#32 = 0#1 from rfl, select_zero,
    show IntOp.cmpi .eq (BitVec.ofNat 32 (2 : Fin 128).val) 2#32 = 1#1 from rfl, select_one, broadcast_apply,
    total_extract, sum_idx3, Fin.sum_univ_one]
  -- that scalar is the sum of the mask block
  unfold Cert.Spec.dM
  refine congrArg (prev (ix3 0 0 2) + ·) ?_
  refine Finset.sum_congr rfl fun b' _ => Finset.sum_congr rfl fun s _ => ?_
  rw [shapeCast_ab_1ab_apply, hB2]

end Cert.KernelIdeal.KerLane

end
-- ==== Proof.KerSum.lean ====
/-
  The accumulator rows at the ideal instance: lanes 0, 1 and 2 after a core's last step are the sums, over the core's
  eight tiles, of the tiles' shares of the softplus sum, the regulariser and the mask sum.

  A point's input blocks are tile `t` of the three argument arrays (rows `16 t … 16 t + 15`); each point adds its
  tile's share to the lane; a core's first step starts from the zero row. The recursion is solved by induction on
  the point.
-/
import proofs.«419007_j82102594831164_3_alg».proof.Proof.KerAcc
import proofs.«419007_j82102594831164_3_alg».proof.Proof.KerLane0
import proofs.«419007_j82102594831164_3_alg».proof.Proof.KerLane12
import proofs.«419007_j82102594831164_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KerSum

open Cert.KernelIdeal Cert.KernelIdeal.Gen Cert.KernelIdeal.KerPieces Cert.KernelIdeal.KerAcc Cert.KernelIdeal.KerLane

variable (m : (ℓ : Loc nD τ sig) → Buf (Elt Ideal) ℓ)

/-- Grid point `t` as a tile number. -/
def pt (t : Fin cfg0.N) : Fin 16 := ⟨t.val, lt_of_lt_of_eq t.isLt N_0⟩

/-- The three argument arrays on core `c`. -/
abbrev X0 (c : Dev nD) : Cert.Spec.ST.Idx → EReal := m ((c : Thread nD τ).loc main_arg0)
abbrev X1 (c : Dev nD) : Cert.Spec.SA.Idx → EReal := m ((c : Thread nD τ).loc main_arg1)
abbrev X2 (c : Dev nD) : Cert.Spec.SM.Idx → EReal := m ((c : Thread nD τ).loc main_arg2)

/-- The input windows' block indices, decided over the grid: point `t` reads tile `t` of each array. -/
theorem idx_facts_in : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem blk0_apply (c : Dev nD) (t : Fin cfg0.N) (b' : Fin 16) (r : Fin 128) (f : Fin 1536) :
    blk0 m c t (ix3 b' r f) = X0 m c (ix3 (Cert.Spec.row (pt t) b') r f) := by
  obtain ⟨e0, e1, e2, -⟩ := idx_facts_in t
  unfold blk0 iblk
  rw [View.read_apply]
  show V m c main_arg0 _ = m (c.tc.loc main_arg0) _
  unfold V
  congr 1
  funext a
  apply Fin.ext
  match a with
  | ⟨0, _⟩ => show win0_0.index t (0 : Fin 3) * 16 + 1 * b'.val = 16 * t.val + b'.val; omega
  | ⟨1, _⟩ => show win0_0.index t (1 : Fin 3) * 128 + 1 * r.val = r.val; omega
  | ⟨2, _⟩ => show win0_0.index t (2 : Fin 3) * 1536 + 1 * f.val = f.val; omega

theorem blk1_apply (c : Dev nD) (t : Fin cfg0.N) (b' : Fin 16) (s : Fin 64) (r : Fin 128) :
    blk1 m c t (ix3 b' s r) = X1 m c (ix3 (Cert.Spec.row (pt t) b') s r) := by
  obtain ⟨-, -, -, e0, e1, e2, -⟩ := idx_facts_in t
  unfold blk1 iblk
  rw [View.read_apply]
  show V m c main_arg1 _ = m (c.tc.loc main_arg1) _
  unfold V
  congr 1
  funext a
  apply Fin.ext
  match a with
  | ⟨0, _⟩ => show win0_1.index t (0 : Fin 3) * 16 + 1 * b'.val = 16 * t.val + b'.val; omega
  | ⟨1, _⟩ => show win0_1.index t (1 : Fin 3) * 64 + 1 * s.val = s.val; omega
  | ⟨2, _⟩ => show win0_1.index t (2 : Fin 3) * 128 + 1 * r.val = r.val; omega

theorem blk2_apply (c : Dev nD) (t : Fin cfg0.N) (b' : Fin 16) (s : Fin 64) :
    blk2 m c t (ix2 b' s) = X2 m c (ix2 (Cert.Spec.row (pt t) b') s) := by
  obtain ⟨-, -, -, -, -, -, e0, e1⟩ := idx_facts_in t
  unfold blk2 iblk
  rw [View.read_apply]
  show V m c main_arg2 _ = m (c.tc.loc main_arg2) _
  unfold V
  congr 1
  funext a
  apply Fin.ext
  match a with
  | ⟨0, _⟩ => show win0_2.index t (0 : Fin 2) * 16 + 1 * b'.val = 16 * t.val + b'.val; omega
  | ⟨1, _⟩ => show win0_2.index t (1 : Fin 2) * 64 + 1 * s.val = s.val; omega

/-- The zero row. -/
theorem pay1_apply (j : S1x1x128.Idx) : (k0_pay1 (F := Ideal)) j = 0 := by
  unfold k0_pay1
  rw [shapeCast_self, broadcast_apply]
  exact Ideal.ofBits_zero_f32

/-- A per-tile term extended by zero beyond the sixteen tiles. -/
def ext (d : Fin 16 → EReal) (k : ℕ) : EReal := if h : k < 16 then d ⟨k, h⟩ else 0

/-- THE RECURSION SOLVED, one lane at a time: if every point adds `d (its tile)` to lane `l`, then after point `n`
    lane `l` holds the sum of `d` over the points of `n`'s core up to `n`. -/
theorem lane_closed (c : Dev nD) (l : Fin 128) (d : Fin 16 → EReal)
    (hupd : ∀ (t : Fin cfg0.N) (prev : FVec Ideal S1x1x128 .f32),
      upd (F := Ideal) (blk0 m c t) (blk1 m c t) (blk2 m c t) prev (ix3 (0 : Fin 1) (0 : Fin 1) l) = prev (ix3 0 0 l) + d (pt t)) :
    ∀ (n : ℕ) (h : n < cfg0.N), acc m c n h (ix3 (0 : Fin 1) (0 : Fin 1) l) = ∑ s ∈ Finset.range (n % 8 + 1), ext d (n - n % 8 + s)
  | 0, h => by
    show upd (F := Ideal) (blk0 m c ⟨0, h⟩) (blk1 m c ⟨0, h⟩) (blk2 m c ⟨0, h⟩) (k0_pay1 (F := Ideal)) (ix3 0 0 l) = _
    rw [hupd, pay1_apply, zero_add]
    show _ = ∑ s ∈ Finset.range 1, ext d (0 - 0 + s)
    rw [Finset.sum_range_one]
    show d (pt ⟨0, h⟩) = ext d 0
    unfold ext
    rw [dif_pos (by decide)]
    rfl
  | n + 1, h => by
    have hN : cfg0.N = 16 := N_0
    show upd (F := Ideal) (blk0 m c ⟨n + 1, h⟩) (blk1 m c ⟨n + 1, h⟩) (blk2 m c ⟨n + 1, h⟩)
      (if (n + 1) % 8 = 0 then (k0_pay1 (F := Ideal)) else acc m c n (Nat.lt_of_succ_lt h)) (ix3 0 0 l) = _
    rw [hupd]
    have hd : d (pt ⟨n + 1, h⟩) = ext d (n + 1) := by
      unfold ext
      rw [dif_pos (by omega)]
      rfl
    by_cases h0 : (n + 1) % 8 = 0
    · rw [if_pos h0, pay1_apply, zero_add, h0]
      show _ = ∑ s ∈ Finset.range 1, ext d (n + 1 - 0 + s)
      rw [Finset.sum_range_one, hd]
      rfl
    · rw [if_neg h0, lane_closed c l d hupd n]
      have e1 : (n + 1) % 8 = n % 8 + 1 := by omega
      have e2 : n + 1 - (n % 8 + 1) = n - n % 8 := by omega
      rw [e1, e2, Finset.sum_range_succ _ (n % 8 + 1), hd]
      congr 2
      omega

/-- Lane `l` after core `q`'s last step: the sum of `d` over the core's eight tiles. -/
theorem lane_core (c : Dev nD) (l : Fin 128) (d : Fin 16 → EReal)
    (hupd : ∀ (t : Fin cfg0.N) (prev : FVec Ideal S1x1x128 .f32),
      upd (F := Ideal) (blk0 m c t) (blk1 m c t) (blk2 m c t) prev (ix3 (0 : Fin 1) (0 : Fin 1) l) = prev (ix3 0 0 l) + d (pt t))
    (q : Fin 2) (h : 8 * q.val + 7 < cfg0.N) :
    acc m c (8 * q.val + 7) h (ix3 (0 : Fin 1) (0 : Fin 1) l) = ∑ j : Fin 8, d (Cert.Spec.tile q j) := by
  rw [lane_closed m c l d hupd]
  have e1 : (8 * q.val + 7) % 8 = 7 := by omega
  rw [e1]
  have e2 : 8 * q.val + 7 - 7 = 8 * q.val := by omega
  rw [e2]
  show ∑ s ∈ Finset.range 8, ext d (8 * q.val + s) = _
  rw [Finset.sum_range]
  refine Finset.sum_congr rfl fun j _ => ?_
  unfold ext
  rw [dif_pos (by have := q.isLt; have := j.isLt; omega)]
  rfl

/-- What each point adds to lanes 0, 1 and 2: its tile's shares of the three sums. -/
theorem hupd0 (c : Dev nD) (t : Fin cfg0.N) (prev : FVec Ideal S1x1x128 .f32) :
    upd (F := Ideal) (blk0 m c t) (blk1 m c t) (blk2 m c t) prev (ix3 (0 : Fin 1) (0 : Fin 1) (0 : Fin 128))
      = prev (ix3 0 0 0) + Cert.Spec.dSP (X0 m c) (X1 m c) (X2 m c) (pt t) :=
  upd_lane0 (X0 m c) (X1 m c) (X2 m c) (pt t) _ _ _ (blk0_apply m c t) (blk1_apply m c t) (blk2_apply m c t) prev

theorem hupd1 (c : Dev nD) (t : Fin cfg0.N) (prev : FVec Ideal S1x1x128 .f32) :
    upd (F := Ideal) (blk0 m c t) (blk1 m c t) (blk2 m c t) prev (ix3 (0 : Fin 1) (0 : Fin 1) (1 : Fin 128))
      = prev (ix3 0 0 1) + Cert.Spec.dREG (X0 m c) (X1 m c) (X2 m c) (pt t) :=
  upd_lane1 (X0 m c) (X1 m c) (X2 m c) (pt t) _ _ _ (blk0_apply m c t) (blk1_apply m c t) (blk2_apply m c t) prev

theorem hupd2 (c : Dev nD) (t : Fin cfg0.N) (prev : FVec Ideal S1x1x128 .f32) :
    upd (F := Ideal) (blk0 m c t) (blk1 m c t) (blk2 m c t) prev (ix3 (0 : Fin 1) (0 : Fin 1) (2 : Fin 128))
      = prev (ix3 0 0 2) + Cert.Spec.dM (X2 m c) (pt t) :=
  upd_lane2 (X0 m c) (X1 m c) (X2 m c) (pt t) _ _ _ (blk0_apply m c t) (blk1_apply m c t) (blk2_apply m c t) prev

end Cert.KernelIdeal.KerSum

end
-- ==== Proof.KerTail.lean ====
/-
  The tiled program's result at the ideal instance.

  The lines after the call sum lanes 0, 1 and 2 over the two rows of the result array; the rows are the accumulator
  rows after each core's last step, whose lanes are the sums of the tiles' shares over the core's eight tiles: so
  the result is the specification's tiled arrangement `kerVal` of the three argument arrays.
-/
import proofs.«419007_j82102594831164_3_alg».proof.Proof.KerFinal
import proofs.«419007_j82102594831164_3_alg».proof.Proof.KerSum
import proofs.«419007_j82102594831164_3_alg».proof.Proof.LibSumIdx
import proofs.«419007_j82102594831164_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KerTail

open Cert.KernelIdeal Cert.KernelIdeal.Gen Cert.KernelIdeal.KerAcc Cert.KernelIdeal.KerFinal Cert.KernelIdeal.KerSum

/-- Lane `o` of the two rows, sliced out, flattened to `[2]` and summed from zero: the sum over the two cores. -/
theorem lane_sum (G : FVec Ideal S2x1x128 .f32) (o : Nat) (ho : o < 128) (h : S2x1x128.Slices ![0, 0, o] S2x1x1) (i : S_.Idx) :
    Host.reduceAdd (F := Ideal) (shapeCast S2 (extractStridedSlice S2x1x1 ![0, 0, o] G h) shapeCasts_S2x1x1_S2)
        (constant (F := Ideal) S_ .f32 0x00000000#32) reducesTo_S2_S_d0 h_S_ i
      = ∑ q : Fin 2, G (ix3 q (0 : Fin 1) (⟨o, ho⟩ : Fin 128)) := by
  simp only [Host.reduceAdd, Ideal.hostReduceAdd_def]
  refine (Ideal.hostReduceAdd_total reducesTo_S2_S_d0 (fun b => b.elim0) _ _ i).trans ?_
  rw [constant_apply, Ideal.ofBits_zero_f32, zero_add, Cert.SumIdx.sum_idx1]
  refine Finset.sum_congr rfl fun q _ => ?_
  refine (shapeCast_apply _ shapeCasts_S2x1x1_S2 (ix1 q) (ix3 q (0 : Fin 1) (0 : Fin 1)) ?_).trans ?_
  · rw [Shape.rowMajor_val_one, Shape.rowMajor_val_three]
    show (q.val * 1 + 0) * 1 + 0 = q.val
    omega
  · exact extractStridedSlice_apply _ G h _ _ (fun a => match a with
      | ⟨0, _⟩ => by show q.val = 0 + q.val; omega
      | ⟨1, _⟩ => rfl
      | ⟨2, _⟩ => by show o = o + 0; omega)

theorem tailOf_apply (G : FVec Ideal S2x1x128 .f32) (i : S_.Idx) :
    tailOf (F := Ideal) G i
      = Ideal.div (∑ q : Fin 2, G (ix3 q (0 : Fin 1) (0 : Fin 128))) (∑ q : Fin 2, G (ix3 q (0 : Fin 1) (2 : Fin 128)))
        + Cert.Spec.c001 * Ideal.div (∑ q : Fin 2, G (ix3 q (0 : Fin 1) (1 : Fin 128))) Cert.Spec.den := by
  unfold tailOf
  rw [addf_apply, mulf_apply]
  show Ideal.div (Host.reduceAdd (F := Ideal) _ _ _ _ i) (Host.reduceAdd (F := Ideal) _ _ _ _ i)
    + _ * Ideal.div (Host.reduceAdd (F := Ideal) _ _ _ _ i) _ = _
  rw [lane_sum G 0 (by norm_num) slices_S2x1x128_S2x1x1_0_0_0 i, lane_sum G 2 (by norm_num) slices_S2x1x128_S2x1x1_0_0_2 i,
    lane_sum G 1 (by norm_num) slices_S2x1x128_S2x1x1_0_0_1 i]
  rfl

/-- Row `q`, lane `l` of the result array is lane `l` of the accumulator row after core `q`'s last step. -/
theorem res_apply (m : (ℓ : Loc nD τ sig) → Buf (Elt Ideal) ℓ) (c : Dev nD) (q : Fin 2) (l : Fin 128)
    (h : 8 * q.val + 7 < cfg0.N) :
    res m c (ix3 q (0 : Fin 1) l) = acc m c (8 * q.val + 7) h (ix3 (0 : Fin 1) (0 : Fin 1) l) := rfl

/-- THE TILED PROGRAM'S RESULT is the specification's tiled arrangement of the three argument arrays. -/
theorem result_eq (m : (ℓ : Loc nD τ sig) → Buf (Elt Ideal) ℓ) (c : Dev nD) (i : S_.Idx) :
    tailOf (F := Ideal) (res m c) i = Cert.Spec.kerVal (X0 m c) (X1 m c) (X2 m c) := by
  have hN : cfg0.N = 16 := N_0
  have hq : ∀ q : Fin 2, 8 * q.val + 7 < cfg0.N := fun q => by have := q.isLt; omega
  rw [tailOf_apply]
  unfold Cert.Spec.kerVal
  simp only [res_apply m c _ _ (hq _), lane_core m c 0 _ (hupd0 m c) _ (hq _), lane_core m c 1 _ (hupd1 m c) _ (hq _),
    lane_core m c 2 _ (hupd2 m c) _ (hq _)]

end Cert.KernelIdeal.KerTail

end
-- ==== Proof.lean ====
/-
  The two programs compute

      Σ softplus(−a³ · s0) / Σ M  +  0.01 · (Σ_{b,r} (Σ_s a²) · (Σ_f T²)) / 2²⁹,      a = (A − 0.1) · M,

  one of them over the whole batch with the inner product `s0` expanded and the regulariser as six quotients, the
  other tile by tile (2 cores × 8 steps × 16 rows) with `s0` factored, the partial sums kept in three lanes of an
  accumulator row and combined after the call. Over the extended reals the two arrangements agree once every input
  is a real number, which the precondition says: the tiling needs only that addition is commutative and associative,
  the factoring and the six quotients need distributivity, which holds on real numbers.

  The frames of the two kernel programs are the generated ones; the reference's frame is its generated run. The
  idealization rewrote nothing. For the value claim: the reference's run read back is the plain arrangement
  (Proof/RefValue.lean), the kernel's run read back is the tiled arrangement (Proof/KerPieces.lean … Proof/KerTail.lean),
  the inputs are real (Proof/Finite.lean) and the arrangements agree (Proof/Algebra.lean).
-/
import proofs.«419007_j82102594831164_3_alg».proof.Defs
import proofs.«419007_j82102594831164_3_alg».proof.Proof.Gen.Kernel
import proofs.«419007_j82102594831164_3_alg».proof.Proof.Gen.Kernel.Skeleton
import proofs.«419007_j82102594831164_3_alg».proof.Proof.Gen.Kernel.Launch
import proofs.«419007_j82102594831164_3_alg».proof.Proof.Gen.Kernel.Points
import proofs.«419007_j82102594831164_3_alg».proof.Proof.Gen.Kernel.Frame
import proofs.«419007_j82102594831164_3_alg».proof.Proof.Gen.KernelIdeal
import proofs.«419007_j82102594831164_3_alg».proof.Proof.Gen.KernelIdeal.Skeleton
import proofs.«419007_j82102594831164_3_alg».proof.Proof.Gen.KernelIdeal.Launch
import proofs.«419007_j82102594831164_3_alg».proof.Proof.Gen.KernelIdeal.Points
import proofs.«419007_j82102594831164_3_alg».proof.Proof.Gen.KernelIdeal.Frame
import proofs.«419007_j82102594831164_3_alg».proof.Proof.Gen.ReferenceIdeal
import proofs.«419007_j82102594831164_3_alg».proof.Proof.Gen.ReferenceIdeal.Run
import proofs.«419007_j82102594831164_3_alg».proof.Proof.Gen.ReferenceIdeal.Read
import proofs.«419007_j82102594831164_3_alg».proof.Proof.Gen.Pre_finite_inputs
import proofs.«419007_j82102594831164_3_alg».proof.Proof.Spec
import proofs.«419007_j82102594831164_3_alg».proof.Proof.Algebra
import proofs.«419007_j82102594831164_3_alg».proof.Proof.Finite
import proofs.«419007_j82102594831164_3_alg».proof.Proof.RefValue
import proofs.«419007_j82102594831164_3_alg».proof.Proof.KerFinal
import proofs.«419007_j82102594831164_3_alg».proof.Proof.KerTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the common value: the kernel's at the tiled arrangement of its arguments, the reference's at
    the plain arrangement of arguments that agree; the arguments are real, so the two arrangements are equal. -/
theorem algebraic : Cert.algebraic_KernelIdeal_ReferenceIdeal := by
  intro m ρ m' ρ' hpre hagree
  refine ⟨fun c => Cert.KernelIdeal.KerFinal.tailOf (F := Ideal) (Cert.KernelIdeal.KerFinal.res m c), ?_, ?_⟩
  · exact Cert.KernelIdeal.KerFinal.run (F := Ideal) m ρ
  refine (θ_run Cert.ReferenceIdeal.defs _ _).mono (fun _ h c => ⟨(h c).1.trans ?_, (h c).2⟩)
    (Cert.ReferenceIdeal.Value.run (F := Ideal) m' ρ')
  funext i
  obtain ⟨hT, hA, hM⟩ := Cert.Finite.real_of_pre _ _ _ (hpre c)
  rw [Cert.ReferenceIdeal.Read.val_main_v71_eq, (hagree c).1, (hagree c).2.1, (hagree c).2.2, Cert.RefValue.ref_eq]
  exact ((Cert.KernelIdeal.KerTail.result_eq m c i).trans (Cert.Algebra.kerVal_eq_refVal _ _ _ hT hA hM)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
